-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x16 : Shape := ⟨2, ![800000, 16]⟩
abbrev S800000 : Shape := ⟨1, ![800000]⟩
abbrev S144x128 : Shape := ⟨2, ![144, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg3 : IVec S800000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 4294917296#32
  let main_v54 : IVec S800000 32 := broadcastInDim S800000 ![] bcast_S_S800000 main_c_20
  let main_v55 : IVec S800000 1 := cmpi .sge main_arg3 main_v54
  let main_c_21 : IVec S_ 32 := constantI S_ 32 50000#32
  let main_v56 : IVec S800000 32 := broadcastInDim S800000 ![] bcast_S_S800000 main_c_21
  let main_v57 : IVec S800000 1 := cmpi .slt main_arg3 main_v56
  let main_v58 : IVec S800000 1 := andi main_v55 main_v57
  let main_c_22 : IVec S_ 1 := constantI S_ 1 1#1
  let main_v59 : IVec S_ 1 := (fun x v => Host.reduce IntOp.andi x v reducesTo_S800000_S_d0 h_S_) main_v58 main_c_22
  let main_v60 : IVec S_ 1 := andi main_v53 main_v59
  main_v60

def fn_part2 {F : FTy → Type} [FloatOps F] (main_arg3 : IVec S800000 32) (main_arg9 : FVec F S128x128 .f32) (main_arg10 : FVec F S128 .f32) (main_arg11 : FVec F S128x64 .f32) (main_arg12 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg3 main_v48 main_v49 main_v50

def fn_part1 {F : FTy → Type} [FloatOps F] (main_arg3 : IVec S800000 32) (main_arg6 : FVec F S128 .f32) (main_arg7 : FVec F S128x64 .f32) (main_arg8 : FVec F S64 .f32) (main_arg9 : FVec F S128x128 .f32) (main_arg10 : FVec F S128 .f32) (main_arg11 : FVec F S128x64 .f32) (main_arg12 : FVec F S64 .f32) (main_v13 : IVec S_ 1) (main_v16 : IVec S144x128 1) : IVec S_ 1 :=
  let main_c_5 : IVec S_ 1 := constantI S_ 1 1#1
  let main_v17 : IVec S_ 1 := (fun x v => Host.reduce IntOp.andi x v reducesTo_S144x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg9 main_arg10 main_arg11 main_arg12 main_v33

def fn {F : FTy → Type} [FloatOps F] (main_arg0 : FVec F S50000x64 .f32) (main_arg1 : FVec F S50000x64 .f32) (main_arg2 : FVec F S800000x16 .f32) (main_arg3 : IVec S800000 32) (main_arg4 : IVec S800000 32) (main_arg5 : FVec F S144x128 .f32) (main_arg6 : FVec F S128 .f32) (main_arg7 : FVec F S128x64 .f32) (main_arg8 : FVec F S64 .f32) (main_arg9 : FVec F S128x128 .f32) (main_arg10 : FVec F S128 .f32) (main_arg11 : FVec F S128x64 .f32) (main_arg12 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000x16 .f32 := Host.absf main_arg2
  let main_cst_2 : FVec F S_ .f32 := constant S_ .f32 0x7F800000#32
  let main_v10 : FVec F S800000x16 .f32 := broadcastInDim S800000x16 ![] bcast_S_S800000x16 main_cst_2
  let main_v11 : IVec S800000x16 1 := cmpf .olt main_v9 main_v10
  let main_c_3 : IVec S_ 1 := constantI S_ 1 1#1
  let main_v12 : IVec S_ 1 := (fun x v => Host.reduce IntOp.andi x v reducesTo_S800000x16_S_d0_1 h_S_) main_v11 main_c_3
  let main_v13 : IVec S_ 1 := andi main_v8 main_v12
  let main_v14 : FVec F S144x128 .f32 := Host.absf main_arg5
  let main_cst_4 : FVec F S_ .f32 := constant S_ .f32 0x7F800000#32
  let main_v15 : FVec F S144x128 .f32 := broadcastInDim S144x128 ![] bcast_S_S144x128 main_cst_4
  let main_v16 : IVec S144x128 1 := cmpf .olt main_v14 main_v15
  fn_part1 (F := F) main_arg3 main_arg6 main_arg7 main_arg8 main_arg9 main_arg10 main_arg11 main_arg12 main_v13 main_v16
-- ==== Kernel.lean ====
abbrev S50000x64 : Shape := ⟨2, ![50000, 64]⟩
abbrev S800000x16 : Shape := ⟨2, ![800000, 16]⟩
abbrev S800000 : Shape := ⟨1, ![800000]⟩
abbrev S144x128 : Shape := ⟨2, ![144, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S64x128 : Shape := ⟨2, ![64, 128]⟩
abbrev S16x128 : Shape := ⟨2, ![16, 128]⟩
abbrev S1x128 : Shape := ⟨2, ![1, 128]⟩
abbrev S1x64 : Shape := ⟨2, ![1, 64]⟩
abbrev S8000x64 : Shape := ⟨2, ![8000, 64]⟩
abbrev S8000x16 : Shape := ⟨2, ![8000, 16]⟩
abbrev S8000x128 : Shape := ⟨2, ![8000, 128]⟩
abbrev S5000x64 : Shape := ⟨2, ![5000, 64]⟩
abbrev S5000x128 : Shape := ⟨2, ![5000, 128]⟩

abbrev nBuf : Space → Nat
  | .hbm => 76
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S800000x16, .f32⟩
  | .hbm, ⟨3, _⟩ => ⟨S800000, .i32⟩
  | .hbm, ⟨4, _⟩ => ⟨S800000, .i32⟩
  | .hbm, ⟨5, _⟩ => ⟨S144x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x64, .f32⟩
  | .hbm, ⟨32, _⟩ => ⟨S800000x64, .i1⟩
  | .hbm, ⟨33, _⟩ => ⟨S_, .f32⟩
  | .hbm, ⟨34, _⟩ => ⟨S800000x64, .f32⟩
  | .hbm, ⟨35, _⟩ => ⟨S800000x64, .f32⟩
  | .hbm, ⟨36, _⟩ => ⟨S800000x64, .bf16⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S1, .i32⟩
  | .hbm, ⟨46, _⟩ => ⟨S_, .i32⟩
  | .hbm, ⟨47, _⟩ => ⟨S800000x1, .i32⟩
  | .hbm, ⟨48, _⟩ => ⟨S800000x1, .i1⟩
  | .hbm, ⟨49, _⟩ => ⟨S1x1, .i32⟩
  | .hbm, ⟨50, _⟩ => ⟨S800000x1, .i32⟩
  | .hbm, ⟨51, _⟩ => ⟨S800000x1, .i1⟩
  | .hbm, ⟨52, _⟩ => ⟨S800000x1, .i1⟩
  | .hbm, ⟨53, _⟩ => ⟨S_, .i1⟩
  | .hbm, ⟨54, _⟩ => ⟨S800000, .i1⟩
  | .hbm, ⟨55, _⟩ => ⟨S800000x64, .f32⟩
  | .hbm, ⟨56, _⟩ => ⟨S800000x64, .i1⟩
  | .hbm, ⟨57, _⟩ => ⟨S_, .f32⟩
  | .hbm, ⟨58, _⟩ => ⟨S800000x64, .f32⟩
  | .hbm, ⟨59, _⟩ => ⟨S800000x64, .f32⟩
  | .hbm, ⟨60, _⟩ => ⟨S800000x64, .bf16⟩
  | .hbm, ⟨61, _⟩ => ⟨S64x128, .f32⟩
  | .hbm, ⟨62, _⟩ => ⟨S64x128, .f32⟩
  | .hbm, ⟨63, _⟩ => ⟨S16x128, .f32⟩
  | .hbm, ⟨64, _⟩ => ⟨S1x128, .f32⟩
  | .hbm, ⟨65, _⟩ => ⟨S1x64, .f32⟩
  | .hbm, ⟨66, _⟩ => ⟨S800000x64, .f32⟩
  | .hbm, ⟨67, _⟩ => ⟨S_, .f32⟩
  | .hbm, ⟨68, _⟩ => ⟨S50000x64, .f32⟩
  | .hbm, ⟨69, _⟩ => ⟨S800000x1, .i32⟩
  | .hbm, ⟨70, _⟩ => ⟨S50000x64, .f32⟩
  | .hbm, ⟨71, _⟩ => ⟨S64x128, .f32⟩
  | .hbm, ⟨72, _⟩ => ⟨S64x128, .f32⟩
  | .hbm, ⟨73, _⟩ => ⟨S1x128, .f32⟩
  | .hbm, ⟨74, _⟩ => ⟨S1x64, .f32⟩
  | .hbm, ⟨75, _⟩ => ⟨S50000x64, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S8000x16, .f32⟩
  | .local _ .vmem, ⟨5, _⟩ => ⟨S8000x16, .f32⟩
  | .local _ .vmem, ⟨6, _⟩ => ⟨S64x128, .f32⟩
  | .local _ .vmem, ⟨7, _⟩ => ⟨S64x128, .f32⟩
  | .local _ .vmem, ⟨8, _⟩ => ⟨S16x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x128, .f32⟩
  | .local _ .vmem, ⟨19, _⟩ => ⟨S64x128, .f32⟩
  | .local _ .vmem, ⟨20, _⟩ => ⟨S1x128, .f32⟩
  | .local _ .vmem, ⟨21, _⟩ => ⟨S128x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bitsLt_bf16_f32 : FTy.bits .bf16 < FTy.bits .f32
  slices_S144x128_S64x128_0_0 : S144x128.Slices ![0, 0] S64x128
  slices_S144x128_S64x128_64_0 : S144x128.Slices ![64, 0] S64x128
  slices_S144x128_S16x128_128_0 : S144x128.Slices ![128, 0] S16x128
  shapeCasts_S128_S1x128 : S128.ShapeCasts S1x128
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x16_S8000x16_0_0 : ∀ a, (![0, 0] : Fin 2 → Nat) a + S8000x16.size a ≤ S8000x16.size a
  h_S8000x16 : 0 < S8000x16.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  slices_S128x128_S64x128_0_0 : S128x128.Slices ![0, 0] S64x128
  slices_S128x128_S64x128_64_0 : S128x128.Slices ![64, 0] S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S8000x64_S64x128_S8000x128_1_0_0_1_n_n_wf : DotDims.WF S8000x64 S64x128 S8000x128 [1] [0] [0] [1] [] []
  dot_S8000x16_S16x128_S8000x128_1_0_0_1_n_n_wf : DotDims.WF S8000x16 S16x128 S8000x128 [1] [0] [0] [1] [] []
  dot_S8000x128_S128x64_S8000x64_1_0_0_1_n_n_wf : DotDims.WF S8000x128 S128x64 S8000x64 [1] [0] [0] [1] [] []
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .bf16 = 32 ∨ (Rect.block (s := S800000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S800000x16.size a
  hwx0_2 : ∀ i : grid0.Coords, EltTy.bits .f32 = 32 ∨ (Rect.block (s := S800000x16) S8000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x16 : Shape := ⟨2, ![800000, 16]⟩
abbrev S800000 : Shape := ⟨1, ![800000]⟩
abbrev S144x128 : Shape := ⟨2, ![144, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩

abbrev nBuf : Space → Nat
  | .hbm => 65
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S800000x16, .f32⟩
  | .hbm, ⟨3, _⟩ => ⟨S800000, .i32⟩
  | .hbm, ⟨4, _⟩ => ⟨S800000, .i32⟩
  | .hbm, ⟨5, _⟩ => ⟨S144x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S800000x144, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S800000x128, .f32⟩
  | .hbm, ⟨38, _⟩ => ⟨S800000x128, .f32⟩
  | .hbm, ⟨39, _⟩ => ⟨S800000x64, .f32⟩
  | .hbm, ⟨40, _⟩ => ⟨S1x64, .f32⟩
  | .hbm, ⟨41, _⟩ => ⟨S800000x64, .f32⟩
  | .hbm, ⟨42, _⟩ => ⟨S800000x64, .f32⟩
  | .hbm, ⟨43, _⟩ => ⟨S_, .f32⟩
  | .hbm, ⟨44, _⟩ => ⟨S800000x64, .f32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .hbm, ⟨62, _⟩ => ⟨S_, .f32⟩
  | .hbm, ⟨63, _⟩ => ⟨S50000x64, .f32⟩
  | .hbm, ⟨64, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_cst : Ref sig .tc := ⟨.hbm, 43, rfl⟩
abbrev main_call1_v0 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_cst : Ref sig .tc := ⟨.hbm, 55, rfl⟩
abbrev main_call2_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call3_cst : Ref sig .tc := ⟨.hbm, 62, rfl⟩
abbrev main_call3_v0 : Ref sig .tc := ⟨.hbm, 63, rfl⟩
abbrev main_v38 : Ref sig .tc := ⟨.hbm, 64, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x144_S144x128_S800000x128_1_0_0_1_n_n_wf : DotDims.WF S800000x144 S144x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x128_S800000x128_1_0_0_1_n_n : DotDims S800000x144 S144x128 S800000x128 where
  lhsContracting := [1]
  rhsContracting := [0]
  lhsNonContracting := [0]
  rhsNonContracting := [1]
  lhsBatch := []
  rhsBatch := []
  wf := dot_S800000x144_S144x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics of the claim, over the extended reals, with no program in sight.

  An edge e carries a row of 16 features and two node indices. Both programs send the rows u[iu e], v[iv e]
  and the edge's own row through a two-layer ReLU network (144 → 128 → 64), add each edge's 64 outputs into
  the bucket iu e of a 50000 × 64 table, and send every node's row of u together with its bucket through a
  second two-layer ReLU network (128 → 128 → 64).

  The two differ in one place. Reading row iu e of a table, both first count a negative index from the end
  (`wrapIdx`). The reference then reads the table there, whatever the index (the gather clamps it). The kernel
  reads the same entry but keeps it only where the counted index lies in 0 … 49999 (`inRange`) and puts the
  pattern 0x7FC00000 elsewhere (`takeFill`). The first layer is written by the kernel as three partial sums
  over the rows 0–63, 64–127, 128–143 of its weight matrix (two partial sums, rows 0–63 and 64–127, in the
  second network); a finite sum in a commutative monoid may be cut that way, so this is no difference.
-/
import Idealize.ShloMosaic.PureOps.Ideal
import Idealize.ShloMosaic.PureOps.Ideal.Laws
import Idealize.ShloMosaic.PureOps.Contract
import Idealize.ShloMosaic.Lib.ValueIdx
import Idealize.ShloMosaic.Lib.Affine

noncomputable section

namespace Cert.Spec

open Idealize.ShloMosaic Idealize.ShloMosaic.ValueIdx

/-- A real matrix of n rows and m columns. -/
abbrev Arr2 (n m : ℕ) : Type := (⟨2, ![n, m]⟩ : Shape).Idx → EReal
/-- A real vector of n entries. -/
abbrev Arr1 (n : ℕ) : Type := (⟨1, ![n]⟩ : Shape).Idx → EReal
/-- One 32-bit index per edge. -/
abbrev EdgeIdx : Type := (⟨1, ![800000]⟩ : Shape).Idx → BitVec 32

/-- The zero both programs clamp at and add into. -/
abbrev zeroWord : EReal := Ideal.ofBits .f32 0x00000000#32
/-- What the kernel's row read puts where the index is out of range. -/
abbrev fillWord : EReal := Ideal.ofBits .f32 0x7FC00000#32

/-! ## Reading a table's rows at the edges' indices -/

/-- A negative index counts from the end of the 50000 rows. -/
def wrapIdx (x : BitVec 32) : BitVec 32 := Scalar.select (IntOp.cmpi .slt x 0#32) (IntOp.addi x 50000#32) x

/-- The counted index names one of the 50000 rows. -/
def inRange (x : BitVec 32) : BitVec 1 :=
  IntOp.andi (IntOp.cmpi .sge (wrapIdx x) 0#32) (IntOp.cmpi .sle (wrapIdx x) 49999#32)

/-- One row read per edge from a 50000 × 64 table: offsets along the columns, the row collapsed. -/
def rowGather : GatherDims ⟨2, ![50000, 64]⟩ ⟨2, ![800000, 1]⟩ ⟨2, ![800000, 64]⟩ where
  offsetDims := [1]
  collapsedSliceDims := [0]
  operandBatchingDims := []
  startIndicesBatchingDims := []
  startIndexMap := [0]
  indexVectorDim := 1
  sliceSizes := ![1, 64]

/-- One row added per edge into a 50000 × 64 table. -/
def rowScatter : ScatterDims ⟨2, ![50000, 64]⟩ ⟨2, ![800000, 1]⟩ ⟨2, ![800000, 64]⟩ where
  updateWindowDims := [1]
  insertedWindowDims := [0]
  scatterDimsToOperandDims := [0]
  indexVectorDim := 1

/-- The edges' indices as a column: entry (e, 0) is edge e's index, after f. -/
def asColumn (f : BitVec 32 → BitVec 32) (idx : EdgeIdx) : IVec ⟨2, ![800000, 1]⟩ 32 := fun k => f (idx (ix1 (k 0)))

/-- The table's rows at the edges' counted indices, as the reference reads them. -/
def rowsOf (tbl : Arr2 50000 64) (idx : EdgeIdx) : Arr2 800000 64 := Host.gather rowGather tbl (asColumn wrapIdx idx)

/-- The same rows as the kernel reads them: kept where the counted index is in range, the fill pattern elsewhere. -/
def takeFill (tbl : Arr2 50000 64) (idx : EdgeIdx) : Arr2 800000 64 :=
  fun i => Scalar.select (inRange (idx (ix1 (i 0)))) (rowsOf tbl idx i) fillWord

/-! ## The two networks, in the kernel's arrangement of the first layer's sum -/

/-- Rows off … off + K − 1 of a matrix. -/
def rowsFrom (off : ℕ) {K N H : ℕ} (h : off + K ≤ N) (w : Arr2 N H) : Arr2 K H :=
  fun j => w (ix2 ⟨off + (j 0).val, by have := idx2_lt0 j; omega⟩ (j 1))

/-- A vector as a matrix of one row. -/
def asRow {H : ℕ} (b : Arr1 H) : Arr2 1 H := fun j => b (ix1 (j 1))

/-- The edge network's hidden unit c on row p. -/
def edgeHidden {n : ℕ} (xu xv : Arr2 n 64) (ev : Arr2 n 16) (w1u w1v : Arr2 64 128) (w1h : Arr2 16 128) (b1 : Arr2 1 128)
    (p : Fin n) (c : Fin 128) : EReal :=
  max ((((∑ k : Fin 64, xu (ix2 p k) * w1u (ix2 k c)) + ∑ k : Fin 64, xv (ix2 p k) * w1v (ix2 k c))
    + ∑ k : Fin 16, ev (ix2 p k) * w1h (ix2 k c)) + b1 (ix2 0 c)) zeroWord

/-- The edge network: 64 outputs per row. -/
def edgeMlp {n : ℕ} (xu xv : Arr2 n 64) (ev : Arr2 n 16) (w1u w1v : Arr2 64 128) (w1h : Arr2 16 128) (b1 : Arr2 1 128)
    (w2 : Arr2 128 64) (b2 : Arr2 1 64) : Arr2 n 64 :=
  fun i => max ((∑ c : Fin 128, edgeHidden xu xv ev w1u w1v w1h b1 (i 0) c * w2 (ix2 c (i 1))) + b2 (ix2 0 (i 1))) zeroWord

/-- The node network's hidden unit c on row p. -/
def nodeHidden {n : ℕ} (u ag : Arr2 n 64) (w1u w1a : Arr2 64 128) (b1 : Arr2 1 128) (p : Fin n) (c : Fin 128) : EReal :=
  max (((∑ k : Fin 64, u (ix2 p k) * w1u (ix2 k c)) + ∑ k : Fin 64, ag (ix2 p k) * w1a (ix2 k c)) + b1 (ix2 0 c)) zeroWord

/-- The node network: 64 outputs per row. -/
def nodeMlp {n : ℕ} (u ag : Arr2 n 64) (w1u w1a : Arr2 64 128) (b1 : Arr2 1 128) (w2 : Arr2 128 64) (b2 : Arr2 1 64) : Arr2 n 64 :=
  fun i => max ((∑ c : Fin 128, nodeHidden u ag w1u w1a b1 (i 0) c * w2 (ix2 c (i 1))) + b2 (ix2 0 (i 1))) zeroWord

/-- The buckets: each edge's 64 outputs added into row iu e of a table of zeros, an index outside 0 … 49999 adding nothing. -/
def buckets (iu : EdgeIdx) (h : Arr2 800000 64) : Arr2 50000 64 :=
  Ideal.hostScatterAdd rowScatter (fun _ => zeroWord) (asColumn id iu) h

/-- Everything after the row reads, as a function of the rows read. -/
def fromRows (xu xv : Arr2 800000 64) (u : Arr2 50000 64) (ev : Arr2 800000 16) (iu : EdgeIdx)
    (gw1 : Arr2 144 128) (gb1 : Arr1 128) (gw2 : Arr2 128 64) (gb2 : Arr1 64)
    (fw1 : Arr2 128 128) (fb1 : Arr1 128) (fw2 : Arr2 128 64) (fb2 : Arr1 64) : Arr2 50000 64 :=
  nodeMlp u
    (buckets iu (edgeMlp xu xv ev (rowsFrom 0 (by decide) gw1) (rowsFrom 64 (by decide) gw1) (rowsFrom 128 (by decide) gw1)
      (asRow gb1) gw2 (asRow gb2)))
    (rowsFrom 0 (by decide) fw1) (rowsFrom 64 (by decide) fw1) (asRow fb1) fw2 (asRow fb2)

/-- The kernel's result. -/
def kernelOut (u v : Arr2 50000 64) (ev : Arr2 800000 16) (iv iu : EdgeIdx)
    (gw1 : Arr2 144 128) (gb1 : Arr1 128) (gw2 : Arr2 128 64) (gb2 : Arr1 64)
    (fw1 : Arr2 128 128) (fb1 : Arr1 128) (fw2 : Arr2 128 64) (fb2 : Arr1 64) : Arr2 50000 64 :=
  fromRows (takeFill u iu) (takeFill v iv) u ev iu gw1 gb1 gw2 gb2 fw1 fb1 fw2 fb2

/-- The reference's result. -/
def refOut (u v : Arr2 50000 64) (ev : Arr2 800000 16) (iv iu : EdgeIdx)
    (gw1 : Arr2 144 128) (gb1 : Arr1 128) (gw2 : Arr2 128 64) (gb2 : Arr1 64)
    (fw1 : Arr2 128 128) (fb1 : Arr1 128) (fw2 : Arr2 128 64) (fb2 : Arr1 64) : Arr2 50000 64 :=
  fromRows (rowsOf u iu) (rowsOf v iv) u ev iu gw1 gb1 gw2 gb2 fw1 fb1 fw2 fb2

end Cert.Spec

end
-- ==== Proof.Region0.lean ====
/-
  The first pallas_call, whatever its operand arrays hold when it starts: after its hundred grid points the
  800000 × 64 output array is the edge network of the operand arrays, row by row. Point t works on rows
  8000 t … 8000 t + 7999 of the three row-blocked operands and on the whole of the six small ones.

  The argument has three parts. An entry of what the body stores is the edge network of the nine loaded blocks at
  that entry. An output row of the network depends on the same row of the three long operands only, so point t
  writes back exactly rows 8000 t … 8000 t + 7999 of the network of the whole arrays. Row r is written back by
  point r / 8000, so the hundred blocks fill the array.
-/
import proofs.«421968_j876173328516_3_alg».proof.Proof.Gen.KernelIdeal.Frame
import proofs.«421968_j876173328516_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.ShloMosaic.ValueIdx Idealize.SL.Sem
open Cert.KernelIdeal Cert.KernelIdeal.Gen

/-! ## The three products at an entry

Each product of a block with a weight matrix, added into zeros, is at entry (p, c) the sum over the contracted
axis k of the left factor at (p, k) times the right factor at (k, c). The contraction has one axis, so its index
is a single number k; the left operand is read at (row of the output, k) and the right at (k, column of the output). -/

theorem lhsA_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhsA_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhsA_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhsA_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

theorem prodA_apply {φ₁ φ₂ : FTy} (l : FVec Ideal S8000x64 φ₁) (r : FVec Ideal S64x128 φ₂) (p : Fin 8000) (c : Fin 128) :
    matmul dot_S8000x64_S64x128_S8000x128_1_0_0_1_n_n none l r (constant (F := Ideal) S8000x128 .f32 0x00000000#32) (ix2 p c)
      = ∑ k : Fin 64, l (ix2 p k) * r (ix2 k c) := by
  refine (Ideal.matmul_constant_zero_apply dot_S8000x64_S64x128_S8000x128_1_0_0_1_n_n none l r (ix2 p c)).trans ?_
  rw [← Equiv.sum_comp (contrEquiv1 dot_S8000x64_S64x128_S8000x128_1_0_0_1_n_n 64 rfl rfl).symm]
  refine Finset.sum_congr rfl fun k _ => ?_
  have hk := contrEquiv1_symm_val dot_S8000x64_S64x128_S8000x128_1_0_0_1_n_n 64 rfl rfl k
  have el : dot_S8000x64_S64x128_S8000x128_1_0_0_1_n_n.lhsIdx (ix2 p c) ((contrEquiv1 dot_S8000x64_S64x128_S8000x128_1_0_0_1_n_n 64 rfl rfl).symm k) = ix2 p k := funext fun a => Fin.ext (by
    match a with
    | ⟨0, _⟩ => exact lhsA_0 _ _
    | ⟨1, _⟩ => exact (lhsA_1 _ _).trans hk)
  have er : dot_S8000x64_S64x128_S8000x128_1_0_0_1_n_n.rhsIdx (ix2 p c) ((contrEquiv1 dot_S8000x64_S64x128_S8000x128_1_0_0_1_n_n 64 rfl rfl).symm k) = ix2 k c := funext fun a => Fin.ext (by
    match a with
    | ⟨0, _⟩ => exact (rhsA_0 _ _).trans hk
    | ⟨1, _⟩ => exact rhsA_1 _ _)
  rw [el, er]

theorem lhsB_0 (i : S8000x128.Idx) (q : dot_S8000x16_S16x128_S8000x128_1_0_0_1_n_n.contr.Idx) :
    (dot_S8000x16_S16x128_S8000x128_1_0_0_1_n_n.lhsIdx i q 0).val = (i 0).val := by
  unfold DotDims.lhsIdx
  rw [dif_neg (show ¬(0 : Fin S8000x16.rank) ∈ dot_S8000x16_S16x128_S8000x128_1_0_0_1_n_n.lhsBatch by decide), dif_pos (show (0 : Fin S8000x16.rank) ∈ dot_S8000x16_S16x128_S8000x128_1_0_0_1_n_n.lhsNonContracting by decide)]
  rfl
theorem lhsB_1 (i : S8000x128.Idx) (q : dot_S8000x16_S16x128_S8000x128_1_0_0_1_n_n.contr.Idx) :
    (dot_S8000x16_S16x128_S8000x128_1_0_0_1_n_n.lhsIdx i q 1).val = (q ⟨0, by decide⟩).val :=
  dot_S8000x16_S16x128_S8000x128_1_0_0_1_n_n.lhsIdx_val_of_single rfl i q
theorem rhsB_0 (i : S8000x128.Idx) (q : dot_S8000x16_S16x128_S8000x128_1_0_0_1_n_n.contr.Idx) :
    (dot_S8000x16_S16x128_S8000x128_1_0_0_1_n_n.rhsIdx i q 0).val = (q ⟨0, by decide⟩).val :=
  dot_S8000x16_S16x128_S8000x128_1_0_0_1_n_n.rhsIdx_val_of_single rfl i q
theorem rhsB_1 (i : S8000x128.Idx) (q : dot_S8000x16_S16x128_S8000x128_1_0_0_1_n_n.contr.Idx) :
    (dot_S8000x16_S16x128_S8000x128_1_0_0_1_n_n.rhsIdx i q 1).val = (i 1).val := by
  unfold DotDims.rhsIdx
  rw [dif_neg (show ¬(1 : Fin S16x128.rank) ∈ dot_S8000x16_S16x128_S8000x128_1_0_0_1_n_n.rhsBatch by decide), dif_pos (show (1 : Fin S16x128.rank) ∈ dot_S8000x16_S16x128_S8000x128_1_0_0_1_n_n.rhsNonContracting by decide)]
  rfl

theorem prodB_apply {φ₁ φ₂ : FTy} (l : FVec Ideal S8000x16 φ₁) (r : FVec Ideal S16x128 φ₂) (p : Fin 8000) (c : Fin 128) :
    matmul dot_S8000x16_S16x128_S8000x128_1_0_0_1_n_n none l r (constant (F := Ideal) S8000x128 .f32 0x00000000#32) (ix2 p c)
      = ∑ k : Fin 16, l (ix2 p k) * r (ix2 k c) := by
  refine (Ideal.matmul_constant_zero_apply dot_S8000x16_S16x128_S8000x128_1_0_0_1_n_n none l r (ix2 p c)).trans ?_
  rw [← Equiv.sum_comp (contrEquiv1 dot_S8000x16_S16x128_S8000x128_1_0_0_1_n_n 16 rfl rfl).symm]
  refine Finset.sum_congr rfl fun k _ => ?_
  have hk := contrEquiv1_symm_val dot_S8000x16_S16x128_S8000x128_1_0_0_1_n_n 16 rfl rfl k
  have el : dot_S8000x16_S16x128_S8000x128_1_0_0_1_n_n.lhsIdx (ix2 p c) ((contrEquiv1 dot_S8000x16_S16x128_S8000x128_1_0_0_1_n_n 16 rfl rfl).symm k) = ix2 p k := funext fun a => Fin.ext (by
    match a with
    | ⟨0, _⟩ => exact lhsB_0 _ _
    | ⟨1, _⟩ => exact (lhsB_1 _ _).trans hk)
  have er : dot_S8000x16_S16x128_S8000x128_1_0_0_1_n_n.rhsIdx (ix2 p c) ((contrEquiv1 dot_S8000x16_S16x128_S8000x128_1_0_0_1_n_n 16 rfl rfl).symm k) = ix2 k c := funext fun a => Fin.ext (by
    match a with
    | ⟨0, _⟩ => exact (rhsB_0 _ _).trans hk
    | ⟨1, _⟩ => exact rhsB_1 _ _)
  rw [el, er]

theorem lhsC_0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhsC_1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
theorem rhsC_0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
theorem rhsC_1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

theorem prodC_apply {φ₁ φ₂ : FTy} (l : FVec Ideal S8000x128 φ₁) (r : FVec Ideal S128x64 φ₂) (p : Fin 8000) (c : Fin 64) :
    matmul dot_S8000x128_S128x64_S8000x64_1_0_0_1_n_n none l r (constant (F := Ideal) S8000x64 .f32 0x00000000#32) (ix2 p c)
      = ∑ k : Fin 128, l (ix2 p k) * r (ix2 k c) := by
  refine (Ideal.matmul_constant_zero_apply dot_S8000x128_S128x64_S8000x64_1_0_0_1_n_n none l r (ix2 p c)).trans ?_
  rw [← Equiv.sum_comp (contrEquiv1 dot_S8000x128_S128x64_S8000x64_1_0_0_1_n_n 128 rfl rfl).symm]
  refine Finset.sum_congr rfl fun k _ => ?_
  have hk := contrEquiv1_symm_val dot_S8000x128_S128x64_S8000x64_1_0_0_1_n_n 128 rfl rfl k
  have el : dot_S8000x128_S128x64_S8000x64_1_0_0_1_n_n.lhsIdx (ix2 p c) ((contrEquiv1 dot_S8000x128_S128x64_S8000x64_1_0_0_1_n_n 128 rfl rfl).symm k) = ix2 p k := funext fun a => Fin.ext (by
    match a with
    | ⟨0, _⟩ => exact lhsC_0 _ _
    | ⟨1, _⟩ => exact (lhsC_1 _ _).trans hk)
  have er : dot_S8000x128_S128x64_S8000x64_1_0_0_1_n_n.rhsIdx (ix2 p c) ((contrEquiv1 dot_S8000x128_S128x64_S8000x64_1_0_0_1_n_n 128 rfl rfl).symm k) = ix2 k c := funext fun a => Fin.ext (by
    match a with
    | ⟨0, _⟩ => exact (rhsC_0 _ _).trans hk
    | ⟨1, _⟩ => exact rhsC_1 _ _)
  rw [el, er]

/-! ## The biases: a one-row matrix repeated down the 8000 rows -/

theorem bias128_apply (b : FVec Ideal S1x128 .f32) (h : S1x128.Broadcasts S8000x128) (p : Fin 8000) (c : Fin 128) :
    broadcastTo S8000x128 b h (ix2 p c) = b (ix2 0 c) := by
  refine broadcastTo_apply b h (ix2 p c) (ix2 0 c) fun a => ?_
  match a with
  | ⟨0, _⟩ => rfl
  | ⟨1, _⟩ => rfl

theorem bias64_apply (b : FVec Ideal S1x64 .f32) (h : S1x64.Broadcasts S8000x64) (p : Fin 8000) (q : Fin 64) :
    broadcastTo S8000x64 b h (ix2 p q) = b (ix2 0 q) := by
  refine broadcastTo_apply b h (ix2 p q) (ix2 0 q) fun a => ?_
  match a with
  | ⟨0, _⟩ => rfl
  | ⟨1, _⟩ => rfl

/-! ## The body's stored value at an entry -/

set_option maxHeartbeats 400000 in
/-- Entry (p, q) of what the body stores is the edge network of the nine loaded blocks at (p, q): the four products
    are the sums over the contracted axis, a change of float format and a reshape to the same shape change nothing,
    each bias is its one row whatever the row p, and the two clamps are the maxima with the zero word. -/
theorem payload_apply (x0 x1 : Vec Ideal S8000x64 .bf16) (x2 : Vec Ideal S8000x16 .f32) (x3 x4 : Vec Ideal S64x128 .f32)
    (x5 : Vec Ideal S16x128 .f32) (x6 : Vec Ideal S1x128 .f32) (x7 : Vec Ideal S128x64 .f32) (x8 : Vec Ideal S1x64 .f32)
    (p : Fin 8000) (q : Fin 64) :
    k0_pay1 (k0_pay2 x0 x1 x2 x3 x4 x5 x6 x7 x8) (k0_pay3 (F := Ideal)) (ix2 p q)
      = Cert.Spec.edgeMlp (n := 8000) x0 x1 x2 x3 x4 x5 x6 x7 x8 (ix2 p q) := by
  unfold k0_pay1 k0_pay2 k0_pay3 Cert.Spec.edgeMlp Cert.Spec.edgeHidden
  simp only [maximumf_apply, addf_apply, truncf_apply, broadcast_apply, shapeCast_self, prodA_apply, prodB_apply, prodC_apply,
    bias128_apply, bias64_apply]
  rfl

/-! ## Where a block sits in its array -/

variable (V : (c : Dev nD) → (b : Ref sig .tc) → Buf (Elt Ideal) ((c : Thread nD τ).loc b))

theorem zero_offsets : (![0, 0] : Fin 2 → Nat) = fun _ => 0 :=
  funext fun a => by match a with | ⟨0, _⟩ => rfl | ⟨1, _⟩ => rfl

/-- The index maps, decided once over the hundred points: the three row-blocked operands and the output take block
    (t, 0) at point t, and the six small operands always take block (0, 0). -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Row 8000 t + p of an array of 800000 rows: row p of point t's block. -/
def rowAt (t : Fin cfg0.N) (p : Fin 8000) : Fin 800000 :=
  ⟨8000 * t.val + p.val, by have := t.isLt; have hN : cfg0.N = 100 := N_0; omega⟩

/-- A block's coordinate in its array is the block's index times the block's extent plus the coordinate inside the
    block. Along the rows the three long operands and the output sit at 8000 t; every other offset is zero. -/
theorem at_xu (t : Fin cfg0.N) (j : S8000x64.Idx) :
    (((cfg0.win 0).blk t).view.emb j : S800000x64.Idx) = ix2 (rowAt t (j 0)) (j 1) := by
  have e := (block_indices t).1
  funext a; apply Fin.ext
  match a with
  | ⟨0, _⟩ => show win0_0.index t (0 : Fin 2) * 8000 + 1 * (j 0).val = 8000 * t.val + (j 0).val; rw [e.1]; omega
  | ⟨1, _⟩ => show win0_0.index t (1 : Fin 2) * 64 + 1 * (j 1).val = (j 1).val; rw [e.2]; omega

theorem at_xv (t : Fin cfg0.N) (j : S8000x64.Idx) :
    (((cfg0.win 1).blk t).view.emb j : S800000x64.Idx) = ix2 (rowAt t (j 0)) (j 1) := by
  have e := (block_indices t).2.1
  funext a; apply Fin.ext
  match a with
  | ⟨0, _⟩ => show win0_1.index t (0 : Fin 2) * 8000 + 1 * (j 0).val = 8000 * t.val + (j 0).val; rw [e.1]; omega
  | ⟨1, _⟩ => show win0_1.index t (1 : Fin 2) * 64 + 1 * (j 1).val = (j 1).val; rw [e.2]; omega

theorem at_ev (t : Fin cfg0.N) (j : S8000x16.Idx) :
    (((cfg0.win 2).blk t).view.emb j : S800000x16.Idx) = ix2 (rowAt t (j 0)) (j 1) := by
  have e := (block_indices t).2.2.1
  funext a; apply Fin.ext
  match a with
  | ⟨0, _⟩ => show win0_2.index t (0 : Fin 2) * 8000 + 1 * (j 0).val = 8000 * t.val + (j 0).val; rw [e.1]; omega
  | ⟨1, _⟩ => show win0_2.index t (1 : Fin 2) * 16 + 1 * (j 1).val = (j 1).val; rw [e.2]; omega

theorem at_w1u (t : Fin cfg0.N) (j : S64x128.Idx) :
    (((cfg0.win 3).blk t).view.emb j : S64x128.Idx) = j := by
  have e := (block_indices t).2.2.2.1
  funext a; apply Fin.ext
  match a with
  | ⟨0, _⟩ => show win0_3.index t (0 : Fin 2) * 64 + 1 * (j 0).val = (j 0).val; rw [e.1]; omega
  | ⟨1, _⟩ => show win0_3.index t (1 : Fin 2) * 128 + 1 * (j 1).val = (j 1).val; rw [e.2]; omega

theorem at_w1v (t : Fin cfg0.N) (j : S64x128.Idx) :
    (((cfg0.win 4).blk t).view.emb j : S64x128.Idx) = j := by
  have e := (block_indices t).2.2.2.2.1
  funext a; apply Fin.ext
  match a with
  | ⟨0, _⟩ => show win0_4.index t (0 : Fin 2) * 64 + 1 * (j 0).val = (j 0).val; rw [e.1]; omega
  | ⟨1, _⟩ => show win0_4.index t (1 : Fin 2) * 128 + 1 * (j 1).val = (j 1).val; rw [e.2]; omega

theorem at_w1h (t : Fin cfg0.N) (j : S16x128.Idx) :
    (((cfg0.win 5).blk t).view.emb j : S16x128.Idx) = j := by
  have e := (block_indices t).2.2.2.2.2.1
  funext a; apply Fin.ext
  match a with
  | ⟨0, _⟩ => show win0_5.index t (0 : Fin 2) * 16 + 1 * (j 0).val = (j 0).val; rw [e.1]; omega
  | ⟨1, _⟩ => show win0_5.index t (1 : Fin 2) * 128 + 1 * (j 1).val = (j 1).val; rw [e.2]; omega

theorem at_b1 (t : Fin cfg0.N) (j : S1x128.Idx) :
    (((cfg0.win 6).blk t).view.emb j : S1x128.Idx) = j := by
  have e := (block_indices t).2.2.2.2.2.2.1
  funext a; apply Fin.ext
  match a with
  | ⟨0, _⟩ => show win0_6.index t (0 : Fin 2) * 1 + 1 * (j 0).val = (j 0).val; rw [e.1]; omega
  | ⟨1, _⟩ => show win0_6.index t (1 : Fin 2) * 128 + 1 * (j 1).val = (j 1).val; rw [e.2]; omega

theorem at_w2 (t : Fin cfg0.N) (j : S128x64.Idx) :
    (((cfg0.win 7).blk t).view.emb j : S128x64.Idx) = j := by
  have e := (block_indices t).2.2.2.2.2.2.2.1
  funext a; apply Fin.ext
  match a with
  | ⟨0, _⟩ => show win0_7.index t (0 : Fin 2) * 128 + 1 * (j 0).val = (j 0).val; rw [e.1]; omega
  | ⟨1, _⟩ => show win0_7.index t (1 : Fin 2) * 64 + 1 * (j 1).val = (j 1).val; rw [e.2]; omega

theorem at_b2 (t : Fin cfg0.N) (j : S1x64.Idx) :
    (((cfg0.win 8).blk t).view.emb j : S1x64.Idx) = j := by
  have e := (block_indices t).2.2.2.2.2.2.2.2.1
  funext a; apply Fin.ext
  match a with
  | ⟨0, _⟩ => show win0_8.index t (0 : Fin 2) * 1 + 1 * (j 0).val = (j 0).val; rw [e.1]; omega
  | ⟨1, _⟩ => show win0_8.index t (1 : Fin 2) * 64 + 1 * (j 1).val = (j 1).val; rw [e.2]; omega

theorem at_out (t : Fin cfg0.N) (j : S8000x64.Idx) :
    (((cfg0.win 9).blk t).view.emb j : S800000x64.Idx) = ix2 (rowAt t (j 0)) (j 1) := by
  have e := (block_indices t).2.2.2.2.2.2.2.2.2
  funext a; apply Fin.ext
  match a with
  | ⟨0, _⟩ => show win0_9.index t (0 : Fin 2) * 8000 + 1 * (j 0).val = 8000 * t.val + (j 0).val; rw [e.1]; omega
  | ⟨1, _⟩ => show win0_9.index t (1 : Fin 2) * 64 + 1 * (j 1).val = (j 1).val; rw [e.2]; omega

/-! ## The blocks the body loads at point t -/

/-- Point t's block of a long operand is rows 8000 t … 8000 t + 7999 of that operand; its block of a small operand is
    the whole operand. -/
theorem blk_xu (c : Dev nD) (t : Fin cfg0.N) :
    (iblk0 V c 0 t : Vec Ideal S8000x64 .bf16)
      = fun j => (V c main_v1 : Cert.Spec.Arr2 800000 64) (ix2 (rowAt t (j 0)) (j 1)) := by
  funext j
  show (V c main_v1 : S800000x64.Idx → EReal) (((cfg0.win 0).blk t).view.emb j) = _
  rw [at_xu]
  rfl

theorem blk_xv (c : Dev nD) (t : Fin cfg0.N) :
    (iblk0 V c 1 t : Vec Ideal S8000x64 .bf16)
      = fun j => (V c main_v3 : Cert.Spec.Arr2 800000 64) (ix2 (rowAt t (j 0)) (j 1)) := by
  funext j
  show (V c main_v3 : S800000x64.Idx → EReal) (((cfg0.win 1).blk t).view.emb j) = _
  rw [at_xv]
  rfl

theorem blk_ev (c : Dev nD) (t : Fin cfg0.N) :
    (iblk0 V c 2 t : Vec Ideal S8000x16 .f32)
      = fun j => (V c main_arg2 : Cert.Spec.Arr2 800000 16) (ix2 (rowAt t (j 0)) (j 1)) := by
  funext j
  show (V c main_arg2 : S800000x16.Idx → EReal) (((cfg0.win 2).blk t).view.emb j) = _
  rw [at_ev]
  rfl

theorem blk_w1u (c : Dev nD) (t : Fin cfg0.N) :
    (iblk0 V c 3 t : Vec Ideal S64x128 .f32) = (V c main_v4 : S64x128.Idx → EReal) := by
  funext j
  show (V c main_v4 : S64x128.Idx → EReal) (((cfg0.win 3).blk t).view.emb j) = _
  rw [at_w1u]

theorem blk_w1v (c : Dev nD) (t : Fin cfg0.N) :
    (iblk0 V c 4 t : Vec Ideal S64x128 .f32) = (V c main_v5 : S64x128.Idx → EReal) := by
  funext j
  show (V c main_v5 : S64x128.Idx → EReal) (((cfg0.win 4).blk t).view.emb j) = _
  rw [at_w1v]

theorem blk_w1h (c : Dev nD) (t : Fin cfg0.N) :
    (iblk0 V c 5 t : Vec Ideal S16x128 .f32) = (V c main_v6 : S16x128.Idx → EReal) := by
  funext j
  show (V c main_v6 : S16x128.Idx → EReal) (((cfg0.win 5).blk t).view.emb j) = _
  rw [at_w1h]

theorem blk_b1 (c : Dev nD) (t : Fin cfg0.N) :
    (iblk0 V c 6 t : Vec Ideal S1x128 .f32) = (V c main_v7 : S1x128.Idx → EReal) := by
  funext j
  show (V c main_v7 : S1x128.Idx → EReal) (((cfg0.win 6).blk t).view.emb j) = _
  rw [at_b1]

theorem blk_w2 (c : Dev nD) (t : Fin cfg0.N) :
    (iblk0 V c 7 t : Vec Ideal S128x64 .f32) = (V c main_arg7 : S128x64.Idx → EReal) := by
  funext j
  show (V c main_arg7 : S128x64.Idx → EReal) (((cfg0.win 7).blk t).view.emb j) = _
  rw [at_w2]

theorem blk_b2 (c : Dev nD) (t : Fin cfg0.N) :
    (iblk0 V c 8 t : Vec Ideal S1x64 .f32) = (V c main_v8 : S1x64.Idx → EReal) := by
  funext j
  show (V c main_v8 : S1x64.Idx → EReal) (((cfg0.win 8).blk t).view.emb j) = _
  rw [at_b2]

/-! ## What point t writes back, and the array after the last point -/

/-- Point t writes back rows 8000 t … 8000 t + 7999 of the edge network of the whole operand arrays: an output row of
    the network depends on the same row of the three long operands only, and on all of the six small ones. -/
theorem flushed_eq (c : Dev nD) (t : Fin cfg0.N) :
    (dat0 V c).flushed 9 t = ((cfg0.win 9).blk t).view.read (Elt Ideal)
      (Cert.Spec.edgeMlp (V c main_v1) (V c main_v3) (V c main_arg2) (V c main_v4) (V c main_v5) (V c main_v6)
        (V c main_v7) (V c main_arg7) (V c main_v8) : Cert.Spec.Arr2 800000 64) := by
  show (cfg0.win 9).cut (grid0.coords t) ((dat0 V c).after 9 t) = _
  rw [after0_9]
  unfold out0_9
  rw [View.canon_unit_zero zero_offsets]
  simp only [View.ld_unit_zero (S := S8000x64) zero_offsets, View.ld_unit_zero (S := S8000x16) zero_offsets,
    View.ld_unit_zero (S := S64x128) zero_offsets, View.ld_unit_zero (S := S16x128) zero_offsets,
    View.ld_unit_zero (S := S1x128) zero_offsets, View.ld_unit_zero (S := S128x64) zero_offsets,
    View.ld_unit_zero (S := S1x64) zero_offsets]
  funext j
  obtain ⟨p, q, rfl⟩ : ∃ (p : Fin 8000) (q : Fin 64), j = ix2 p q := ⟨j 0, j 1, eq_ix2 j⟩
  refine (payload_apply (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  rw [blk_xu, blk_xv, blk_ev, blk_w1u, blk_w1v, blk_w1h, blk_b1, blk_w2, blk_b2]
  show _ = Cert.Spec.edgeMlp (V c main_v1) (V c main_v3) (V c main_arg2) (V c main_v4) (V c main_v5) (V c main_v6)
    (V c main_v7) (V c main_arg7) (V c main_v8) (((cfg0.win 9).blk t).view.emb (ix2 p q))
  rw [at_out]
  rfl

/-- An entry of the output array lies in point t's block exactly when each coordinate lies in the block's range. -/
theorem mem_block (t : Fin cfg0.N) (i : S800000x64.Idx) :
    i ∈ ((cfg0.win 9).blk t).view.set ↔ ∀ a : Fin 2, win0_9.index t a * S8000x64.size a ≤ (i a).val
      ∧ (i a).val < win0_9.index t a * S8000x64.size a + S8000x64.size a := by
  show i ∈ ((View.whole main_v9).slice (win0_9.rect t)).set ↔ _
  rw [View.set_slice_whole, Rect.mem_set_unit]
  exact Iff.rfl

/-- Row r of the output is written back by point r / 8000. -/
theorem covered (i : S800000x64.Idx) :
    ∃ t : Fin cfg0.N, (cfg0.win 9).flush t = true ∧ i ∈ ((cfg0.win 9).blk t).view.set := by
  have hi0 : (i 0).val < 800000 := idx2_lt0 i
  have hi1 : (i 1).val < 64 := idx2_lt1 i
  have hN : cfg0.N = 100 := N_0
  obtain ⟨t, ht⟩ : ∃ t : Fin cfg0.N, t.val = (i 0).val / 8000 := ⟨⟨(i 0).val / 8000, by rw [hN]; omega⟩, rfl⟩
  have e := (block_indices t).2.2.2.2.2.2.2.2.2
  refine ⟨t, flush0_9 t, ?_⟩
  rw [mem_block]
  intro a
  match a with
  | ⟨0, _⟩ =>
    show win0_9.index t (0 : Fin 2) * 8000 ≤ (i 0).val ∧ (i 0).val < win0_9.index t (0 : Fin 2) * 8000 + 8000
    rw [e.1, ht]; omega
  | ⟨1, _⟩ =>
    show win0_9.index t (1 : Fin 2) * 64 ≤ (i 1).val ∧ (i 1).val < win0_9.index t (1 : Fin 2) * 64 + 64
    rw [e.2]; omega

/-- The output array after the last grid point. -/
theorem final (c : Dev nD) :
    ((dat0 V c).arrAt 9 cfg0.N : Cert.Spec.Arr2 800000 64)
      = Cert.Spec.edgeMlp (V c main_v1) (V c main_v3) (V c main_arg2) (V c main_v4) (V c main_v5) (V c main_v6)
          (V c main_v7) (V c main_arg7) (V c main_v8) :=
  (dat0 V c).arrAt_eq_of_cover 9
    (Cert.Spec.edgeMlp (V c main_v1) (V c main_v3) (V c main_arg2) (V c main_v4) (V c main_v5) (V c main_v6)
      (V c main_v7) (V c main_arg7) (V c main_v8) : Cert.Spec.Arr2 800000 64)
    (fun t _ => flushed_eq V c t) covered

end Cert.KernelIdeal.Region0

end
-- ==== Proof.Region1.lean ====
/-
  The second pallas_call, whatever its operand arrays hold when it starts: after its ten grid points the
  50000 × 64 output array is the node network of the operand arrays, row by row. Point t works on rows
  5000 t … 5000 t + 4999 of the two row-blocked operands and on the whole of the five small ones.
-/
import proofs.«421968_j876173328516_3_alg».proof.Proof.Gen.KernelIdeal.Frame
import proofs.«421968_j876173328516_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The products: a row of the left factor against a column of the right one -/

theorem lhs_first_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_first_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_first_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_first_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A first-layer product into the zero splat, at row p and hidden unit c: the sum over the 64 features. -/
theorem first_apply (a : FVec Ideal S5000x64 .bf16) (b : FVec Ideal S64x128 .bf16) (p : Fin 5000) (c : Fin 128) :
    matmul dot_S5000x64_S64x128_S5000x128_1_0_0_1_n_n none a b (constant (F := Ideal) S5000x128 .f32 0x00000000#32) (ix2 p c)
      = ∑ k : Fin 64, a (ix2 p k) * b (ix2 k c) := by
  unfold matmul
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p c) ((contrEquiv1 dot_S5000x64_S64x128_S5000x128_1_0_0_1_n_n 64 rfl rfl).symm k) = ix2 p k := funext fun a => Fin.ext (by
    match a with
    | ⟨0, _⟩ => exact lhs_first_0 _ _
    | ⟨1, _⟩ => exact (lhs_first_1 _ _).trans hk)
  have er : dot_S5000x64_S64x128_S5000x128_1_0_0_1_n_n.rhsIdx (ix2 p c) ((contrEquiv1 dot_S5000x64_S64x128_S5000x128_1_0_0_1_n_n 64 rfl rfl).symm k) = ix2 k c := funext fun a => Fin.ext (by
    match a with
    | ⟨0, _⟩ => exact (rhs_first_0 _ _).trans hk
    | ⟨1, _⟩ => exact rhs_first_1 _ _)
  rw [el, er]

theorem lhs_second_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_second_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_second_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_second_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The second-layer product into the zero splat, at row p and output q: the sum over the 128 hidden units. -/
theorem second_apply (a : FVec Ideal S5000x128 .bf16) (b : FVec Ideal S128x64 .bf16) (p : Fin 5000) (q : Fin 64) :
    matmul dot_S5000x128_S128x64_S5000x64_1_0_0_1_n_n none a b (constant (F := Ideal) S5000x64 .f32 0x00000000#32) (ix2 p q)
      = ∑ c : Fin 128, a (ix2 p c) * b (ix2 c q) := by
  unfold matmul
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_second_0 _ _
    | ⟨1, _⟩ => exact (lhs_second_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_second_0 _ _).trans hk
    | ⟨1, _⟩ => exact rhs_second_1 _ _)
  rw [el, er]

/-! ## The body's arithmetic at one entry of its block -/

set_option maxHeartbeats 400000 in
/-- What the body stores at row p, column q of its block is the node network of the blocks it loaded. -/
theorem payload_apply (x0 x1 : Vec Ideal S5000x64 .f32) (x2 x3 : Vec Ideal S64x128 .f32) (x4 : Vec Ideal S1x128 .f32)
    (x5 : Vec Ideal S128x64 .f32) (x6 : Vec Ideal S1x64 .f32) (p : Fin 5000) (q : Fin 64) :
    k1_pay1 x0 x1 x2 x3 x4 x5 x6 (ix2 p q) = Cert.Spec.nodeMlp (n := 5000) x0 x1 x2 x3 x4 x5 x6 (ix2 p q) := by
  unfold k1_pay1 Cert.Spec.nodeMlp Cert.Spec.nodeHidden
  simp only [shapeCast_self, maximumf_apply, addf_apply, broadcast_apply, truncf_apply, second_apply, first_apply,
    broadcastTo_1b_ab_apply]
  rfl

/-! ## Where the blocks lie in the arrays -/

/-- The block index maps over the ten points: the row-blocked windows (0, 1 and the output 7) are at block
    (t, 0), the five small ones at block (0, 0). -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Row p of point t's block of the node features is row 5000 t + p of the array. -/
theorem blk_row0 (c : Dev nD) (t : Fin cfg1.N) (p : Fin 5000) (k : Fin 64) (r : Fin 50000) (hr : r.val = 5000 * t.val + p.val) :
    (iblk1 V c 0 t : Vec Ideal S5000x64 .f32) (ix2 p k) = V c main_arg0 (ix2 r k) := by
  unfold iblk1
  rw [View.read_apply]
  show V c main_arg0 _ = V c main_arg0 _
  congr 1
  funext a
  apply Fin.ext
  have e := (index_facts t).1
  match a with
  | ⟨0, _⟩ => show win1_0.index t (0 : Fin 2) * 5000 + 1 * p.val = r.val; rw [e.1]; omega
  | ⟨1, _⟩ => show win1_0.index t (1 : Fin 2) * 64 + 1 * k.val = k.val; rw [e.2]; omega

/-- Row p of point t's block of the buckets is row 5000 t + p of the array. -/
theorem blk_row1 (c : Dev nD) (t : Fin cfg1.N) (p : Fin 5000) (k : Fin 64) (r : Fin 50000) (hr : r.val = 5000 * t.val + p.val) :
    (iblk1 V c 1 t : Vec Ideal S5000x64 .f32) (ix2 p k) = V c main_v12 (ix2 r k) := by
  unfold iblk1
  rw [View.read_apply]
  show V c main_v12 _ = V c main_v12 _
  congr 1
  funext a
  apply Fin.ext
  have e := (index_facts t).2.1
  match a with
  | ⟨0, _⟩ => show win1_1.index t (0 : Fin 2) * 5000 + 1 * p.val = r.val; rw [e.1]; omega
  | ⟨1, _⟩ => show win1_1.index t (1 : Fin 2) * 64 + 1 * k.val = k.val; rw [e.2]; omega

/-- The five small windows' blocks are the whole arrays, at every point. -/
theorem blk_whole2 (c : Dev nD) (t : Fin cfg1.N) : (iblk1 V c 2 t : Vec Ideal S64x128 .f32) = V c main_v13 := by
  funext j
  unfold iblk1
  rw [View.read_apply]
  show V c main_v13 _ = V c main_v13 _
  congr 1
  funext a
  apply Fin.ext
  have e := (index_facts t).2.2.1
  match a with
  | ⟨0, _⟩ => show win1_2.index t (0 : Fin 2) * 64 + 1 * (j 0).val = (j 0).val; rw [e.1]; omega
  | ⟨1, _⟩ => show win1_2.index t (1 : Fin 2) * 128 + 1 * (j 1).val = (j 1).val; rw [e.2]; omega
theorem blk_whole3 (c : Dev nD) (t : Fin cfg1.N) : (iblk1 V c 3 t : Vec Ideal S64x128 .f32) = V c main_v14 := by
  funext j
  unfold iblk1
  rw [View.read_apply]
  show V c main_v14 _ = V c main_v14 _
  congr 1
  funext a
  apply Fin.ext
  have e := (index_facts t).2.2.2.1
  match a with
  | ⟨0, _⟩ => show win1_3.index t (0 : Fin 2) * 64 + 1 * (j 0).val = (j 0).val; rw [e.1]; omega
  | ⟨1, _⟩ => show win1_3.index t (1 : Fin 2) * 128 + 1 * (j 1).val = (j 1).val; rw [e.2]; omega
theorem blk_whole4 (c : Dev nD) (t : Fin cfg1.N) : (iblk1 V c 4 t : Vec Ideal S1x128 .f32) = V c main_v15 := by
  funext j
  unfold iblk1
  rw [View.read_apply]
  show V c main_v15 _ = V c main_v15 _
  congr 1
  funext a
  apply Fin.ext
  have e := (index_facts t).2.2.2.2.1
  match a with
  | ⟨0, _⟩ => show win1_4.index t (0 : Fin 2) * 1 + 1 * (j 0).val = (j 0).val; rw [e.1]; omega
  | ⟨1, _⟩ => show win1_4.index t (1 : Fin 2) * 128 + 1 * (j 1).val = (j 1).val; rw [e.2]; omega
theorem blk_whole5 (c : Dev nD) (t : Fin cfg1.N) : (iblk1 V c 5 t : Vec Ideal S128x64 .f32) = V c main_arg11 := by
  funext j
  unfold iblk1
  rw [View.read_apply]
  show V c main_arg11 _ = V c main_arg11 _
  congr 1
  funext a
  apply Fin.ext
  have e := (index_facts t).2.2.2.2.2.1
  match a with
  | ⟨0, _⟩ => show win1_5.index t (0 : Fin 2) * 128 + 1 * (j 0).val = (j 0).val; rw [e.1]; omega
  | ⟨1, _⟩ => show win1_5.index t (1 : Fin 2) * 64 + 1 * (j 1).val = (j 1).val; rw [e.2]; omega
theorem blk_whole6 (c : Dev nD) (t : Fin cfg1.N) : (iblk1 V c 6 t : Vec Ideal S1x64 .f32) = V c main_v16 := by
  funext j
  unfold iblk1
  rw [View.read_apply]
  show V c main_v16 _ = V c main_v16 _
  congr 1
  funext a
  apply Fin.ext
  have e := (index_facts t).2.2.2.2.2.2.1
  match a with
  | ⟨0, _⟩ => show win1_6.index t (0 : Fin 2) * 1 + 1 * (j 0).val = (j 0).val; rw [e.1]; omega
  | ⟨1, _⟩ => show win1_6.index t (1 : Fin 2) * 64 + 1 * (j 1).val = (j 1).val; rw [e.2]; omega

/-- Entry (p, q) of point t's output block is entry (5000 t + p, q) of the output array. -/
theorem out_emb (t : Fin cfg1.N) (p : Fin 5000) (q : Fin 64) (r : Fin 50000) (hr : r.val = 5000 * t.val + p.val) :
    ((cfg1.win 7).blk t).view.emb (ix2 p q) = ix2 r q := by
  funext a
  apply Fin.ext
  have e := (index_facts t).2.2.2.2.2.2.2
  match a with
  | ⟨0, _⟩ => show win1_7.index t (0 : Fin 2) * 5000 + 1 * p.val = r.val; rw [e.1]; omega
  | ⟨1, _⟩ => show win1_7.index t (1 : Fin 2) * 64 + 1 * q.val = q.val; rw [e.2]; omega

/-! ## A row of the network reads one row of its two row-wise operands -/

/-- Row p of the node network of (u, ag) is row p' of the node network of (u', ag') when those rows agree. -/
theorem nodeMlp_row {n n' : ℕ} (u ag : Cert.Spec.Arr2 n 64) (u' ag' : Cert.Spec.Arr2 n' 64)
    (w1u w1a : Cert.Spec.Arr2 64 128) (b1 : Cert.Spec.Arr2 1 128) (w2 : Cert.Spec.Arr2 128 64) (b2 : Cert.Spec.Arr2 1 64)
    (p : Fin n) (p' : Fin n') (q : Fin 64)
    (hu : ∀ k, u (ix2 p k) = u' (ix2 p' k)) (ha : ∀ k, ag (ix2 p k) = ag' (ix2 p' k)) :
    Cert.Spec.nodeMlp u ag w1u w1a b1 w2 b2 (ix2 p q) = Cert.Spec.nodeMlp u' ag' w1u w1a b1 w2 b2 (ix2 p' q) := by
  unfold Cert.Spec.nodeMlp Cert.Spec.nodeHidden
  show max ((∑ c : Fin 128, max (((∑ k : Fin 64, u (ix2 p k) * w1u (ix2 k c)) + ∑ k : Fin 64, ag (ix2 p k) * w1a (ix2 k c)) + b1 (ix2 0 c)) Cert.Spec.zeroWord * w2 (ix2 c q)) + b2 (ix2 0 q)) Cert.Spec.zeroWord
    = max ((∑ c : Fin 128, max (((∑ k : Fin 64, u' (ix2 p' k) * w1u (ix2 k c)) + ∑ k : Fin 64, ag' (ix2 p' k) * w1a (ix2 k c)) + b1 (ix2 0 c)) Cert.Spec.zeroWord * w2 (ix2 c q)) + b2 (ix2 0 q)) Cert.Spec.zeroWord
  simp only [hu, ha]

/-! ## What each point writes back, and the whole array -/

theorem origin_eq : (![0, 0] : Fin 2 → Nat) = fun _ => 0 := funext fun a => by fin_cases a <;> rfl

/-- Point t writes back its block of the node network of the operand arrays. -/
theorem flushed_eq (c : Dev nD) (t : Fin cfg1.N) :
    (dat1 V c).flushed 7 t = ((cfg1.win 7).blk t).view.read (Elt Ideal)
      (Cert.Spec.nodeMlp (V c main_arg0) (V c main_v12) (V c main_v13) (V c main_v14) (V c main_v15) (V c main_arg11) (V c main_v16)) := by
  show (cfg1.win 7).cut (grid1.coords t) ((dat1 V c).after 7 t) = _
  rw [after1_7]
  unfold out1_7
  rw [View.canon_unit_zero origin_eq]
  simp only [View.ld_unit_zero (S := S5000x64) origin_eq, View.ld_unit_zero (S := S64x128) origin_eq,
    View.ld_unit_zero (S := S1x128) origin_eq, View.ld_unit_zero (S := S128x64) origin_eq, View.ld_unit_zero (S := S1x64) origin_eq]
  rw [blk_whole2, blk_whole3, blk_whole4, blk_whole5, blk_whole6]
  funext j
  obtain ⟨p, q, rfl⟩ : ∃ (p : Fin 5000) (q : Fin 64), j = ix2 p q := ⟨j 0, j 1, eq_ix2 j⟩
  have ht : t.val < 10 := lt_of_lt_of_eq t.isLt N_1
  have hr : 5000 * t.val + p.val < 50000 := by have := p.isLt; omega
  rw [View.read_apply, out_emb t p q ⟨5000 * t.val + p.val, hr⟩ rfl]
  refine (payload_apply _ _ _ _ _ _ _ p q).trans ?_
  exact nodeMlp_row _ _ _ _ _ _ _ _ _ p ⟨5000 * t.val + p.val, hr⟩ q (fun k => blk_row0 V c t p k _ rfl) (fun k => blk_row1 V c t p k _ rfl)

/-- An index of the output array is in point t's block iff each coordinate is in the block's range on its axis. -/
theorem mem_out_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v17).slice (win1_7.rect t)).set ↔ _
  rw [View.set_slice_whole, Rect.mem_set_unit]
  exact Iff.rfl

/-- Row r of the output array lies in the block of point r / 5000, which is written back. -/
theorem cover (i : S50000x64.Idx) : ∃ t : Fin cfg1.N, (cfg1.win 7).flush t = true ∧ i ∈ ((cfg1.win 7).blk t).view.set := by
  have h0 : (i 0).val < 50000 := idx2_lt0 i
  have h1 : (i 1).val < 64 := idx2_lt1 i
  have hN : (i 0).val / 5000 < cfg1.N := lt_of_lt_of_eq (by omega) N_1.symm
  refine ⟨⟨(i 0).val / 5000, hN⟩, flush1_7 _, ?_⟩
  rw [mem_out_blk]
  have e := (index_facts ⟨(i 0).val / 5000, hN⟩).2.2.2.2.2.2.2
  intro a
  match a with
  | ⟨0, _⟩ =>
    show win1_7.index ⟨(i 0).val / 5000, hN⟩ (0 : Fin 2) * 5000 ≤ (i 0).val ∧ (i 0).val < win1_7.index ⟨(i 0).val / 5000, hN⟩ (0 : Fin 2) * 5000 + 5000
    rw [e.1]; show (i 0).val / 5000 * 5000 ≤ (i 0).val ∧ (i 0).val < (i 0).val / 5000 * 5000 + 5000; omega
  | ⟨1, _⟩ =>
    show win1_7.index ⟨(i 0).val / 5000, hN⟩ (1 : Fin 2) * 64 ≤ (i 1).val ∧ (i 1).val < win1_7.index ⟨(i 0).val / 5000, hN⟩ (1 : Fin 2) * 64 + 64
    rw [e.2]; omega

/-- The output array after the last grid point. -/
theorem final (c : Dev nD) :
    ((dat1 V c).arrAt 7 cfg1.N : Cert.Spec.Arr2 50000 64)
      = Cert.Spec.nodeMlp (V c main_arg0) (V c main_v12) (V c main_v13) (V c main_v14) (V c main_v15) (V c main_arg11)
          (V c main_v16) :=
  (dat1 V c).arrAt_eq_of_cover 7 _ (fun t _ => flushed_eq V c t) cover

end Cert.KernelIdeal.Region1

end
-- ==== Proof.HostValues.lean ====
/-
  What the operand arrays of the two pallas_calls hold when each call starts, as functions of the launch
  memory: the host operations before the first call (besides the two row reads, which have a module of their
  own) cut the first weight matrix into its three row blocks and lay the two bias vectors out as one-row
  matrices; those between the calls add the first call's output rows
  into the buckets, cut the second network's first weight matrix in two and lay its biases out.
-/
import proofs.«421968_j876173328516_3_alg».proof.Proof.Gen.KernelIdeal.Frame
import proofs.«421968_j876173328516_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.ReduceAll

noncomputable section

namespace Cert.KernelIdeal.HostValues

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- An argument array as launched. -/
abbrev arg (c : Dev nD) (b : Ref sig .tc) : Buf (Elt Ideal) ((c.tc : Thread nD τ).loc b) := m ((c.tc : Thread nD τ).loc b)

/-! ## What each stretch of host operations leaves in the arrays it writes, from any contents `X` before it -/

theorem ops3_v4 (X : Valuation τ sig (Elt Ideal)) :
    (StableHlo.after (hostOps0_3 (F := Ideal)) X (Proc.devRef .tc main_v4) : S64x128.Idx → EReal)
      = extractStridedSlice S64x128 ![0, 0] (X (Proc.devRef .tc main_arg5) : S144x128.Idx → EReal) slices_S144x128_S64x128_0_0 := by
  after_results <;> rfl

theorem ops3_v5 (X : Valuation τ sig (Elt Ideal)) :
    (StableHlo.after (hostOps0_3 (F := Ideal)) X (Proc.devRef .tc main_v5) : S64x128.Idx → EReal)
      = extractStridedSlice S64x128 ![64, 0] (X (Proc.devRef .tc main_arg5) : S144x128.Idx → EReal) slices_S144x128_S64x128_64_0 := by
  after_results <;> rfl

theorem ops3_v6 (X : Valuation τ sig (Elt Ideal)) :
    (StableHlo.after (hostOps0_3 (F := Ideal)) X (Proc.devRef .tc main_v6) : S16x128.Idx → EReal)
      = extractStridedSlice S16x128 ![128, 0] (X (Proc.devRef .tc main_arg5) : S144x128.Idx → EReal) slices_S144x128_S16x128_128_0 := by
  after_results <;> rfl

theorem ops3_v7 (X : Valuation τ sig (Elt Ideal)) :
    (StableHlo.after (hostOps0_3 (F := Ideal)) X (Proc.devRef .tc main_v7) : S1x128.Idx → EReal)
      = shapeCast S1x128 (X (Proc.devRef .tc main_arg6) : S128.Idx → EReal) shapeCasts_S128_S1x128 := by
  after_results <;> rfl

theorem ops3_v8 (X : Valuation τ sig (Elt Ideal)) :
    (StableHlo.after (hostOps0_3 (F := Ideal)) X (Proc.devRef .tc main_v8) : S1x64.Idx → EReal)
      = shapeCast S1x64 (X (Proc.devRef .tc main_arg8) : S64.Idx → EReal) shapeCasts_S64_S1x64 := by
  after_results <;> rfl

theorem ops1_v13 (X : Valuation τ sig (Elt Ideal)) :
    (StableHlo.after (hostOps1 (F := Ideal)) X (Proc.devRef .tc main_v13) : S64x128.Idx → EReal)
      = extractStridedSlice S64x128 ![0, 0] (X (Proc.devRef .tc main_arg9) : S128x128.Idx → EReal) slices_S128x128_S64x128_0_0 := by
  after_results <;> rfl

theorem ops1_v14 (X : Valuation τ sig (Elt Ideal)) :
    (StableHlo.after (hostOps1 (F := Ideal)) X (Proc.devRef .tc main_v14) : S64x128.Idx → EReal)
      = extractStridedSlice S64x128 ![64, 0] (X (Proc.devRef .tc main_arg9) : S128x128.Idx → EReal) slices_S128x128_S64x128_64_0 := by
  after_results <;> rfl

theorem ops1_v15 (X : Valuation τ sig (Elt Ideal)) :
    (StableHlo.after (hostOps1 (F := Ideal)) X (Proc.devRef .tc main_v15) : S1x128.Idx → EReal)
      = shapeCast S1x128 (X (Proc.devRef .tc main_arg10) : S128.Idx → EReal) shapeCasts_S128_S1x128 := by
  after_results <;> rfl

theorem ops1_v16 (X : Valuation τ sig (Elt Ideal)) :
    (StableHlo.after (hostOps1 (F := Ideal)) X (Proc.devRef .tc main_v16) : S1x64.Idx → EReal)
      = shapeCast S1x64 (X (Proc.devRef .tc main_arg12) : S64.Idx → EReal) shapeCasts_S64_S1x64 := by
  after_results <;> rfl

theorem ops1_v12 (X : Valuation τ sig (Elt Ideal)) :
    (StableHlo.after (hostOps1 (F := Ideal)) X (Proc.devRef .tc main_v12) : S50000x64.Idx → EReal)
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (X (Proc.devRef .tc main_arg4) : IVec S800000 32))
          (X (Proc.devRef .tc main_v9) : S800000x64.Idx → EReal) := by
  after_results <;> rfl

/-! ## The arguments stay as launched

No host operation and no window of the first call writes an argument, so the fold read at an argument's buffer
walks back, stretch by stretch, to the launch memory. -/

/-- A buffer that no operation of a stretch writes holds after the stretch what it held before it. -/
local macro "unwritten" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = m ((c : Thread nD τ).loc main_arg2) := rfl

theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl

theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl

theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by unwritten hostOps0_2
    _ = W1 m ρ c (Proc.devRef .tc main_arg6) := by unwritten hostOps0_1
    _ = W0 m ρ c (Proc.devRef .tc main_arg6) := by unwritten hostOps0
    _ = m ((c : Thread nD τ).loc main_arg6) := rfl

theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by unwritten hostOps0_2
    _ = W1 m ρ c (Proc.devRef .tc main_arg7) := by unwritten hostOps0_1
    _ = W0 m ρ c (Proc.devRef .tc main_arg7) := by unwritten hostOps0
    _ = m ((c : Thread nD τ).loc main_arg7) := rfl

theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by unwritten hostOps0_2
    _ = W1 m ρ c (Proc.devRef .tc main_arg8) := by unwritten hostOps0_1
    _ = W0 m ρ c (Proc.devRef .tc main_arg8) := by unwritten hostOps0
    _ = m ((c : Thread nD τ).loc main_arg8) := rfl

theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := by unwritten hostOps0_2
    _ = W1 m ρ c (Proc.devRef .tc main_arg9) := by unwritten hostOps0_1
    _ = W0 m ρ c (Proc.devRef .tc main_arg9) := by unwritten hostOps0
    _ = m ((c : Thread nD τ).loc main_arg9) := rfl

theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := by unwritten hostOps0_2
    _ = W1 m ρ c (Proc.devRef .tc main_arg10) := by unwritten hostOps0_1
    _ = W0 m ρ c (Proc.devRef .tc main_arg10) := by unwritten hostOps0
    _ = m ((c : Thread nD τ).loc main_arg10) := rfl

theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := by unwritten hostOps0_2
    _ = W1 m ρ c (Proc.devRef .tc main_arg11) := by unwritten hostOps0_1
    _ = W0 m ρ c (Proc.devRef .tc main_arg11) := by unwritten hostOps0
    _ = m ((c : Thread nD τ).loc main_arg11) := rfl

theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := by unwritten hostOps0_2
    _ = W1 m ρ c (Proc.devRef .tc main_arg12) := by unwritten hostOps0_1
    _ = W0 m ρ c (Proc.devRef .tc main_arg12) := by unwritten hostOps0
    _ = m ((c : Thread nD τ).loc main_arg12) := rfl

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := by unwritten hostOps0_3
    _ = m ((c : Thread nD τ).loc main_arg0) := W3_arg0 m ρ c

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := by unwritten hostOps0_3
    _ = m ((c : Thread nD τ).loc main_arg2) := W3_arg2 m ρ c

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by unwritten hostOps0_3
    _ = m ((c : Thread nD τ).loc main_arg4) := W3_arg4 m ρ c

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := by unwritten hostOps0_3
    _ = m ((c : Thread nD τ).loc main_arg7) := W3_arg7 m ρ c

theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := by unwritten hostOps0_3
    _ = m ((c : Thread nD τ).loc main_arg9) := W3_arg9 m ρ c

theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := by unwritten hostOps0_3
    _ = m ((c : Thread nD τ).loc main_arg10) := W3_arg10 m ρ c

theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := by unwritten hostOps0_3
    _ = m ((c : Thread nD τ).loc main_arg11) := W3_arg11 m ρ c

theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := by unwritten hostOps0_3
    _ = m ((c : Thread nD τ).loc main_arg12) := W3_arg12 m ρ c

theorem W5_arg0 (c : Dev nD) : W5 m ρ c (Proc.devRef .tc main_arg0) = m ((c : Thread nD τ).loc main_arg0) :=
  (W5_of_ne m ρ c main_arg0 (by decide)).trans (W4_arg0 m ρ c)

theorem W5_arg4 (c : Dev nD) : W5 m ρ c (Proc.devRef .tc main_arg4) = m ((c : Thread nD τ).loc main_arg4) :=
  (W5_of_ne m ρ c main_arg4 (by decide)).trans (W4_arg4 m ρ c)

theorem W5_arg9 (c : Dev nD) : W5 m ρ c (Proc.devRef .tc main_arg9) = m ((c : Thread nD τ).loc main_arg9) :=
  (W5_of_ne m ρ c main_arg9 (by decide)).trans (W4_arg9 m ρ c)

theorem W5_arg10 (c : Dev nD) : W5 m ρ c (Proc.devRef .tc main_arg10) = m ((c : Thread nD τ).loc main_arg10) :=
  (W5_of_ne m ρ c main_arg10 (by decide)).trans (W4_arg10 m ρ c)

theorem W5_arg11 (c : Dev nD) : W5 m ρ c (Proc.devRef .tc main_arg11) = m ((c : Thread nD τ).loc main_arg11) :=
  (W5_of_ne m ρ c main_arg11 (by decide)).trans (W4_arg11 m ρ c)

theorem W5_arg12 (c : Dev nD) : W5 m ρ c (Proc.devRef .tc main_arg12) = m ((c : Thread nD τ).loc main_arg12) :=
  (W5_of_ne m ρ c main_arg12 (by decide)).trans (W4_arg12 m ρ c)

theorem W6_arg0 (c : Dev nD) : W6 m ρ c (Proc.devRef .tc main_arg0) = m ((c : Thread nD τ).loc main_arg0) :=
  calc W6 m ρ c (Proc.devRef .tc main_arg0)
    _ = W5 m ρ c (Proc.devRef .tc main_arg0) := by unwritten hostOps1
    _ = m ((c : Thread nD τ).loc main_arg0) := W5_arg0 m ρ c

theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := by unwritten hostOps1
    _ = m ((c : Thread nD τ).loc main_arg11) := W5_arg11 m ρ c

/-! ## The operations read at an index -/

/-- Rows off … off + K − 1 of a matrix are its slice at offset (off, 0). -/
theorem slice_rows {N K H : ℕ} (off : ℕ) (h : off + K ≤ N) (w : Cert.Spec.Arr2 N H)
    (hs : (⟨2, ![N, H]⟩ : Shape).Slices ![off, 0] ⟨2, ![K, H]⟩) :
    extractStridedSlice ⟨2, ![K, H]⟩ ![off, 0] w hs = Cert.Spec.rowsFrom off h w := by
  funext j
  unfold Cert.Spec.rowsFrom
  refine extractStridedSlice_apply _ _ _ j _ (fun a => ?_)
  match a with
  | ⟨0, _⟩ => rfl
  | ⟨1, _⟩ => exact (Nat.zero_add _).symm

/-- A vector recast as a matrix of one row. -/
theorem cast_row {H : ℕ} (b : Cert.Spec.Arr1 H) (h : (⟨1, ![H]⟩ : Shape).ShapeCasts ⟨2, ![1, H]⟩) :
    shapeCast ⟨2, ![1, H]⟩ b h = Cert.Spec.asRow b := by
  funext j
  obtain ⟨p, q, rfl⟩ : ∃ p q, j = ix2 p q := ⟨j 0, j 1, eq_ix2 j⟩
  exact shapeCast_a_1a_apply b h p q

/-- The scatter of the program is the buckets of the specification: a table of zeros, the edges' indices as a
    column, one row added per edge. -/
theorem scatter_buckets (idx : Cert.Spec.EdgeIdx) (h : Cert.Spec.Arr2 800000 64) :
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 idx) h : Cert.Spec.Arr2 50000 64)
      = Cert.Spec.buckets idx h := by
  have hz : (broadcastInDim S50000x64 ![] bcast_S_S50000x64 (constant (F := Ideal) S_ .f32 0x00000000#32) : S50000x64.Idx → EReal)
      = fun _ => Cert.Spec.zeroWord := by
    funext j
    rfl
  have hc : (broadcastInDim S800000x1 ![0] bcast_S800000_S800000x1_0 idx : IVec S800000x1 32) = Cert.Spec.asColumn id idx := by
    funext k
    unfold Cert.Spec.asColumn
    refine broadcastInDim_apply _ _ _ k _ (fun a => ?_)
    match a with
    | ⟨0, _⟩ => exact (if_neg (show ¬ (800000 : ℕ) = 1 by decide)).symm
  unfold Cert.Spec.buckets Host.scatterAdd
  rw [hz, hc]
  rfl

/-! ## At the first call's start -/

theorem V4_arg2 (c : Dev nD) : (V4 m ρ c main_arg2 : Cert.Spec.Arr2 800000 16) = arg m c main_arg2 := W4_arg2 m ρ c
theorem V4_v4 (c : Dev nD) : (V4 m ρ c main_v4 : Cert.Spec.Arr2 64 128) = Cert.Spec.rowsFrom 0 (by decide) (arg m c main_arg5 : Cert.Spec.Arr2 144 128) := by
  refine (ops3_v4 (W3 m ρ c)).trans ?_
  rw [W3_arg5]
  exact slice_rows 0 _ _ _
theorem V4_v5 (c : Dev nD) : (V4 m ρ c main_v5 : Cert.Spec.Arr2 64 128) = Cert.Spec.rowsFrom 64 (by decide) (arg m c main_arg5 : Cert.Spec.Arr2 144 128) := by
  refine (ops3_v5 (W3 m ρ c)).trans ?_
  rw [W3_arg5]
  exact slice_rows 64 _ _ _
theorem V4_v6 (c : Dev nD) : (V4 m ρ c main_v6 : Cert.Spec.Arr2 16 128) = Cert.Spec.rowsFrom 128 (by decide) (arg m c main_arg5 : Cert.Spec.Arr2 144 128) := by
  refine (ops3_v6 (W3 m ρ c)).trans ?_
  rw [W3_arg5]
  exact slice_rows 128 _ _ _
theorem V4_v7 (c : Dev nD) : (V4 m ρ c main_v7 : Cert.Spec.Arr2 1 128) = Cert.Spec.asRow (arg m c main_arg6) := by
  refine (ops3_v7 (W3 m ρ c)).trans ?_
  rw [W3_arg6]
  exact cast_row _ _
theorem V4_arg7 (c : Dev nD) : (V4 m ρ c main_arg7 : Cert.Spec.Arr2 128 64) = arg m c main_arg7 := W4_arg7 m ρ c
theorem V4_v8 (c : Dev nD) : (V4 m ρ c main_v8 : Cert.Spec.Arr2 1 64) = Cert.Spec.asRow (arg m c main_arg8) := by
  refine (ops3_v8 (W3 m ρ c)).trans ?_
  rw [W3_arg8]
  exact cast_row _ _

/-! ## At the second call's start -/

theorem V6_arg0 (c : Dev nD) : (V6 m ρ c main_arg0 : Cert.Spec.Arr2 50000 64) = arg m c main_arg0 := W6_arg0 m ρ c
/-- The buckets, of whatever the first call left in its output array. -/
theorem V6_v12 (c : Dev nD) : (V6 m ρ c main_v12 : Cert.Spec.Arr2 50000 64)
    = Cert.Spec.buckets (arg m c main_arg4) ((dat0 (V4 m ρ) c).arrAt 9 cfg0.N : Cert.Spec.Arr2 800000 64) := by
  refine (ops1_v12 (W5 m ρ c)).trans ?_
  rw [W5_arg4, show W5 m ρ c (Proc.devRef .tc main_v9) = (dat0 (V4 m ρ) c).arrAt 9 cfg0.N from W5_arr m ρ c 9]
  exact scatter_buckets _ _
theorem V6_v13 (c : Dev nD) : (V6 m ρ c main_v13 : Cert.Spec.Arr2 64 128) = Cert.Spec.rowsFrom 0 (by decide) (arg m c main_arg9 : Cert.Spec.Arr2 128 128) := by
  refine (ops1_v13 (W5 m ρ c)).trans ?_
  rw [W5_arg9]
  exact slice_rows 0 _ _ _
theorem V6_v14 (c : Dev nD) : (V6 m ρ c main_v14 : Cert.Spec.Arr2 64 128) = Cert.Spec.rowsFrom 64 (by decide) (arg m c main_arg9 : Cert.Spec.Arr2 128 128) := by
  refine (ops1_v14 (W5 m ρ c)).trans ?_
  rw [W5_arg9]
  exact slice_rows 64 _ _ _
theorem V6_v15 (c : Dev nD) : (V6 m ρ c main_v15 : Cert.Spec.Arr2 1 128) = Cert.Spec.asRow (arg m c main_arg10) := by
  refine (ops1_v15 (W5 m ρ c)).trans ?_
  rw [W5_arg10]
  exact cast_row _ _
theorem V6_arg11 (c : Dev nD) : (V6 m ρ c main_arg11 : Cert.Spec.Arr2 128 64) = arg m c main_arg11 := W6_arg11 m ρ c
theorem V6_v16 (c : Dev nD) : (V6 m ρ c main_v16 : Cert.Spec.Arr2 1 64) = Cert.Spec.asRow (arg m c main_arg12) := by
  refine (ops1_v16 (W5 m ρ c)).trans ?_
  rw [W5_arg12]
  exact cast_row _ _

end Cert.KernelIdeal.HostValues

end
-- ==== Proof.HostTakes.lean ====
/-
  The first two operands of the first pallas_call when it starts: the rows of u (of v) at the edges' indices,
  as the host's row read leaves them. The read counts a negative index from the end, reads the table at the
  counted index, and keeps the row read only where the counted index lies in 0 … 49999: elsewhere every
  entry of the row is the pattern 0x7FC00000. The narrowing to the 16-bit format that follows is the identity
  on the extended reals.
-/
import proofs.«421968_j876173328516_3_alg».proof.Proof.Gen.KernelIdeal.Frame
import proofs.«421968_j876173328516_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.ReduceAll

noncomputable section

namespace Cert.KernelIdeal.HostTakes

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- An argument array as launched. -/
abbrev arg (c : Dev nD) (b : Ref sig .tc) : Buf (Elt Ideal) ((c.tc : Thread nD τ).loc b) := m ((c.tc : Thread nD τ).loc b)

/-! ## The row read as the program writes it, over any table and any index vector -/

/-- The counted indices as a column: a negative index has 50000 added, the vector is then laid out as 800000 × 1. -/
def idxCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Per edge, whether the counted index lies in 0 … 49999: the conjunction of the two comparisons, reduced by
    "and" along the column's one entry. -/
def rowMask (idx : IVec S800000 32) : IVec S800000 1 :=
  Host.reduce IntOp.andi
    (andi (cmpi .sge (idxCol idx) (broadcastInDim S800000x1 ![] bcast_S_S800000x1 (constantI S_ 32 0#32)))
      (cmpi .sle (idxCol idx)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- The row read: the gathered rows where the mask is set, the pattern 0x7FC00000 elsewhere. -/
def takeTerm (tbl : FVec Ideal S50000x64 .f32) (idx : IVec S800000 32) : FVec Ideal S800000x64 .f32 :=
  select (broadcastInDim S800000x64 ![0] bcast_S800000_S800000x64_0 (rowMask idx))
    (Host.gather gather_S50000x64_S800000x1_S800000x64_1_0_n_n_0_1_164 tbl (idxCol idx))
    (broadcastInDim S800000x64 ![] bcast_S_S800000x64 (constant S_ .f32 0x7FC00000#32))

/-- The column of counted indices is the specification's. -/
theorem idxCol_eq (idx : IVec S800000 32) : idxCol idx = Cert.Spec.asColumn Cert.Spec.wrapIdx idx := by
  funext k
  unfold idxCol
  refine (broadcastInDim_apply _ _ _ k (ix1 (k 0)) (fun a => match a with | ⟨0, _⟩ => rfl)).trans ?_
  rfl

/-- Dropping the second axis of an 800000 × 1 array leaves the 800000 rows. -/
theorem reduces_col : S800000x1.Reduces [1] S800000 := by decide

/-- The source index over edge e along the reduced axis: row e, the column's one entry. -/
theorem lift_col (e : Fin 800000) (k : Fin (S800000x1.size 1)) : reduces_col.lift (ix1 e) k = ix2 e 0 := by
  funext c
  apply Fin.ext
  refine (reduces_col.lift_val _ _ _).trans ?_
  match c with
  | ⟨0, _⟩ => rfl
  | ⟨1, _⟩ =>
    have hk : k.val < 1 := k.isLt
    show k.val = 0
    exact Nat.lt_one_iff.mp hk

/-- "And" with 1 changes no bit. -/
theorem andi_one (b : BitVec 1) : IntOp.andi b 1#1 = b := by revert b; decide

/-- A fold by "and" over an axis of one entry combines that entry with the initial value. -/
theorem fold_andi_one {n : ℕ} (hn : n = 1) (f : Fin n → BitVec 1) (b : BitVec 1) :
    (Finset.univ : Finset (Fin n)).fold IntOp.andi b f = IntOp.andi (f ⟨0, by omega⟩) b := by
  subst hn
  rw [Finset.univ_unique, Finset.fold_singleton]
  rfl

/-- Along a column of one entry the "and" from 1 is that entry: the mask at edge e says whether the counted index is
    in range. -/
theorem rowMask_apply (idx : IVec S800000 32) (e : Fin 800000) :
    rowMask idx (ix1 e) = Cert.Spec.inRange (idx (ix1 e)) := by
  unfold rowMask
  refine (Host.reduce_eq_fold_single IntOp.andi _ _ reducesTo_S800000x1_S800000_d1 reduces_col h_S_ (ix1 e)).trans ?_
  refine (fold_andi_one (rfl : S800000x1.size 1 = 1) _ _).trans ?_
  rw [Function.comp_apply, lift_col, idxCol_eq]
  exact andi_one _

/-- The mask broadcast along a row is the range test of that row's edge. -/
theorem rowMask_bcast (idx : IVec S800000 32) (p : Fin 800000) (q : Fin 64) :
    broadcastInDim S800000x64 ![0] bcast_S800000_S800000x64_0 (rowMask idx) (ix2 p q) = Cert.Spec.inRange (idx (ix1 p)) :=
  (broadcastInDim_apply _ _ _ (ix2 p q) (ix1 p) (fun a => match a with | ⟨0, _⟩ => rfl)).trans (rowMask_apply idx p)

/-- The gathered rows are the table's rows at the counted indices. -/
theorem gather_eq (tbl : FVec Ideal S50000x64 .f32) (idx : IVec S800000 32) :
    Host.gather gather_S50000x64_S800000x1_S800000x64_1_0_n_n_0_1_164 tbl (idxCol idx) = Cert.Spec.rowsOf tbl idx := by
  rw [idxCol_eq]
  rfl

/-- The row read as the program writes it is the specification's: the mask broadcast along a row is the range test of
    the edge's index, the gathered row is the table's row at the counted index, the fill is the pattern. -/
theorem takeTerm_eq (tbl : FVec Ideal S50000x64 .f32) (idx : IVec S800000 32) :
    takeTerm tbl idx = Cert.Spec.takeFill tbl idx := by
  funext i
  obtain ⟨p, q, rfl⟩ : ∃ p q, i = ix2 p q := ⟨i 0, i 1, eq_ix2 i⟩
  unfold takeTerm
  rw [select_apply, rowMask_bcast, gather_eq]
  rfl

/-! ## The two row reads in the run, and the walk back to the launch memory -/

/-- Contents carried to a typed reference's buffer and back are the contents. -/
theorem ofBuf_toBuf {T : BufTy} (x : StableHlo.TRef sig T) (v : T.Contents (Elt Ideal)) : x.ofBuf (x.toBuf v) = v := by
  obtain ⟨r, h, _, _⟩ := x
  subst h
  rfl

/-- The first row read leaves in its result the read of the table in main_arg0 at the indices in main_arg4, whatever
    the buffers held before. -/
theorem after0_v0 (X : Valuation τ sig (Elt Ideal)) :
    (.of main_v0 : StableHlo.TRef sig ⟨S800000x64, .f32⟩).ofBuf (StableHlo.after hostOps0 X (Proc.devRef .tc main_v0))
      = takeTerm ((.of main_arg0 : StableHlo.TRef sig ⟨S50000x64, .f32⟩).ofBuf (X (Proc.devRef .tc main_arg0)))
          ((.of main_arg4 : StableHlo.TRef sig ⟨S800000, .i32⟩).ofBuf (X (Proc.devRef .tc main_arg4))) := by
  after_results_simp
  simp only [ofBuf_toBuf]
  unfold takeTerm rowMask idxCol
  rfl

/-- The second row read likewise: the table in main_arg1 at the indices in main_arg3. -/
theorem after2_v2 (X : Valuation τ sig (Elt Ideal)) :
    (.of main_v2 : StableHlo.TRef sig ⟨S800000x64, .f32⟩).ofBuf (StableHlo.after hostOps0_2 X (Proc.devRef .tc main_v2))
      = takeTerm ((.of main_arg1 : StableHlo.TRef sig ⟨S50000x64, .f32⟩).ofBuf (X (Proc.devRef .tc main_arg1)))
          ((.of main_arg3 : StableHlo.TRef sig ⟨S800000, .i32⟩).ofBuf (X (Proc.devRef .tc main_arg3))) := by
  after_results_simp
  simp only [ofBuf_toBuf]
  unfold takeTerm rowMask idxCol
  rfl

/-- The narrowing that follows the first row read: on the extended reals the identity. -/
theorem after1_v1 (X : Valuation τ sig (Elt Ideal)) :
    (StableHlo.after (hostOps0_1 (F := Ideal)) X (Proc.devRef .tc main_v1) : S800000x64.Idx → EReal)
      = (.of main_v0 : StableHlo.TRef sig ⟨S800000x64, .f32⟩).ofBuf (X (Proc.devRef .tc main_v0)) := by
  after_results <;> rfl

/-- The narrowing that follows the second row read, likewise. -/
theorem after3_v3 (X : Valuation τ sig (Elt Ideal)) :
    (StableHlo.after (hostOps0_3 (F := Ideal)) X (Proc.devRef .tc main_v3) : S800000x64.Idx → EReal)
      = (.of main_v2 : StableHlo.TRef sig ⟨S800000x64, .f32⟩).ofBuf (X (Proc.devRef .tc main_v2)) := by
  after_results <;> rfl

/-- A buffer that no operation of a stretch writes holds after the stretch what it held before: each operation's
    written set is a singleton, and the buffer is none of them. -/
local macro "untouched" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The rows of u at the edges' first indices, as the first call finds them. -/
theorem V4_v1 (c : Dev nD) : (V4 m ρ c main_v1 : Cert.Spec.Arr2 800000 64) = Cert.Spec.takeFill (arg m c main_arg0) (arg m c main_arg4) :=
  calc (V4 m ρ c main_v1 : Cert.Spec.Arr2 800000 64)
    _ = (W4 m ρ c (Proc.devRef .tc main_v1) : Cert.Spec.Arr2 800000 64) := rfl
    _ = (W3 m ρ c (Proc.devRef .tc main_v1) : Cert.Spec.Arr2 800000 64) := by untouched hostOps0_3
    _ = (W2 m ρ c (Proc.devRef .tc main_v1) : Cert.Spec.Arr2 800000 64) := by untouched hostOps0_2
    _ = (.of main_v0 : StableHlo.TRef sig ⟨S800000x64, .f32⟩).ofBuf (W1 m ρ c (Proc.devRef .tc main_v0)) := after1_v1 (W1 m ρ c)
    _ = takeTerm (arg m c main_arg0) (arg m c main_arg4) := after0_v0 (W0 m ρ c)
    _ = Cert.Spec.takeFill (arg m c main_arg0) (arg m c main_arg4) := takeTerm_eq _ _

/-- The second table and the second index vector are as launched when the second row read starts: neither the
    first row read nor the narrowing after it writes an argument. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := by untouched hostOps0_1
    _ = W0 m ρ c (Proc.devRef .tc main_arg1) := by untouched hostOps0
    _ = m ((c : Thread nD τ).loc main_arg1) := rfl
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := by untouched hostOps0_1
    _ = W0 m ρ c (Proc.devRef .tc main_arg3) := by untouched hostOps0
    _ = m ((c : Thread nD τ).loc main_arg3) := rfl

/-- The rows of v at the edges' second indices, as the first call finds them. -/
theorem V4_v3 (c : Dev nD) : (V4 m ρ c main_v3 : Cert.Spec.Arr2 800000 64) = Cert.Spec.takeFill (arg m c main_arg1) (arg m c main_arg3) :=
  calc (V4 m ρ c main_v3 : Cert.Spec.Arr2 800000 64)
    _ = (W4 m ρ c (Proc.devRef .tc main_v3) : Cert.Spec.Arr2 800000 64) := rfl
    _ = (.of main_v2 : StableHlo.TRef sig ⟨S800000x64, .f32⟩).ofBuf (W3 m ρ c (Proc.devRef .tc main_v2)) := after3_v3 (W3 m ρ c)
    _ = takeTerm ((.of main_arg1 : StableHlo.TRef sig ⟨S50000x64, .f32⟩).ofBuf (W2 m ρ c (Proc.devRef .tc main_arg1)))
          ((.of main_arg3 : StableHlo.TRef sig ⟨S800000, .i32⟩).ofBuf (W2 m ρ c (Proc.devRef .tc main_arg3))) := after2_v2 (W2 m ρ c)
    _ = takeTerm (arg m c main_arg1) (arg m c main_arg3) := by rw [W2_arg1, W2_arg3]; rfl
    _ = Cert.Spec.takeFill (arg m c main_arg1) (arg m c main_arg3) := takeTerm_eq _ _

end Cert.KernelIdeal.HostTakes

end
-- ==== Proof.KernelValue.lean ====
/-
  The kernel's result as one function of the argument arrays. The result buffer ends at what the second
  pallas_call leaves in its output array: the node network of that call's operands. Of those, one is u as
  launched, four are the second weight matrix's two row blocks and the two biases laid out as rows, and one is
  the buckets of the first call's output array — the edge network of ITS operands: the rows of u and v at the
  edges' indices as the host's row reads leave them, the edges' own rows, the first weight matrix's three row
  blocks, and two more biases as rows.
-/
import proofs.«421968_j876173328516_3_alg».proof.Proof.KernelRun
import proofs.«421968_j876173328516_3_alg».proof.Proof.Region0
import proofs.«421968_j876173328516_3_alg».proof.Proof.Region1
import proofs.«421968_j876173328516_3_alg».proof.Proof.HostValues
import proofs.«421968_j876173328516_3_alg».proof.Proof.HostTakes
import proofs.«421968_j876173328516_3_alg».proof.Proof.Spec

noncomputable section

namespace Cert.KernelIdeal.Whole

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- What the first call leaves in its output array, from the launch memory. -/
theorem edges_eq (c : Dev nD) :
    ((dat0 (V4 m ρ) c).arrAt 9 cfg0.N : Cert.Spec.Arr2 800000 64)
      = Cert.Spec.edgeMlp (Cert.Spec.takeFill (HostValues.arg m c main_arg0) (HostValues.arg m c main_arg4)) (Cert.Spec.takeFill (HostValues.arg m c main_arg1) (HostValues.arg m c main_arg3)) (HostValues.arg m c main_arg2)
          (Cert.Spec.rowsFrom 0 (by decide) ((HostValues.arg m c main_arg5) : Cert.Spec.Arr2 144 128)) (Cert.Spec.rowsFrom 64 (by decide) ((HostValues.arg m c main_arg5) : Cert.Spec.Arr2 144 128))
          (Cert.Spec.rowsFrom 128 (by decide) ((HostValues.arg m c main_arg5) : Cert.Spec.Arr2 144 128)) (Cert.Spec.asRow (HostValues.arg m c main_arg6)) (HostValues.arg m c main_arg7) (Cert.Spec.asRow (HostValues.arg m c main_arg8)) := by
  rw [Region0.final (V4 m ρ) c, HostTakes.V4_v1 m ρ c, HostTakes.V4_v3 m ρ c, HostValues.V4_arg2 m ρ c, HostValues.V4_v4 m ρ c,
    HostValues.V4_v5 m ρ c, HostValues.V4_v6 m ρ c, HostValues.V4_v7 m ρ c, HostValues.V4_arg7 m ρ c, HostValues.V4_v8 m ρ c]

/-- The result buffer at the last boundary is the specification's kernel result of the launch memory. -/
theorem result_eq (c : Dev nD) :
    (W7 m ρ c (Proc.devRef .tc main_v17) : Cert.Spec.Arr2 50000 64)
      = Cert.Spec.kernelOut (HostValues.arg m c main_arg0) (HostValues.arg m c main_arg1) (HostValues.arg m c main_arg2) (HostValues.arg m c main_arg3) (HostValues.arg m c main_arg4) (HostValues.arg m c main_arg5) (HostValues.arg m c main_arg6) (HostValues.arg m c main_arg7) (HostValues.arg m c main_arg8) (HostValues.arg m c main_arg9) (HostValues.arg m c main_arg10) (HostValues.arg m c main_arg11) (HostValues.arg m c main_arg12) := by
  have e7 : (W7 m ρ c (Proc.devRef .tc main_v17) : Cert.Spec.Arr2 50000 64) = (dat1 (V6 m ρ) c).arrAt 7 cfg1.N := W7_arr m ρ c 7
  rw [e7, Region1.final (V6 m ρ) c, HostValues.V6_arg0 m ρ c, HostValues.V6_v12 m ρ c, HostValues.V6_v13 m ρ c, HostValues.V6_v14 m ρ c,
    HostValues.V6_v15 m ρ c, HostValues.V6_arg11 m ρ c, HostValues.V6_v16 m ρ c, edges_eq m ρ c]
  rfl

/-- The kernel's run, its result named. -/
theorem run_value : θ_run defs (onTc (τ := τ) (main (F := Ideal))) ⟨m, fun _ => 0, ρ⟩ (fun r => ∀ c : Dev nD,
      r.2.mem ((c.tc : Thread nD τ).loc main_v17)
        = Cert.Spec.kernelOut (HostValues.arg m c main_arg0) (HostValues.arg m c main_arg1) (HostValues.arg m c main_arg2) (HostValues.arg m c main_arg3) (HostValues.arg m c main_arg4) (HostValues.arg m c main_arg5) (HostValues.arg m c main_arg6) (HostValues.arg m c main_arg7) (HostValues.arg m c main_arg8) (HostValues.arg m c main_arg9) (HostValues.arg m c main_arg10) (HostValues.arg m c main_arg11) (HostValues.arg m c main_arg12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m ρ c), (h c).2⟩) (Cert.KernelIdeal.Gen.run (F := Ideal) m ρ)

end Cert.KernelIdeal.Whole

end
-- ==== Proof.RefValue.lean ====
/-
  The reference's result as one function of the argument arrays, index by index, at the extended reals: its
  last stage is the node network of u and the buckets, the buckets those of the edge network's rows, the edge
  network's three operands the rows of u and v at the edges' counted indices and the edges' own rows. The
  reference multiplies each joined row by the whole weight matrix; cutting that sum at the joints gives the
  partial sums the specification is written with.
-/
import proofs.«421968_j876173328516_3_alg».proof.Proof.Gen.ReferenceIdeal.Run
import proofs.«421968_j876173328516_3_alg».proof.Proof.Gen.ReferenceIdeal.Read
import proofs.«421968_j876173328516_3_alg».proof.Proof.Spec

noncomputable section

namespace Cert.ReferenceIdeal.RefValue

open Idealize.ShloMosaic Idealize.ShloMosaic.ValueIdx Idealize.SL.Sem
open Cert.ReferenceIdeal

/-- The reference's index column for a gather is the edges' counted indices as a column. -/
theorem column_v5 (x4 : Cert.Spec.EdgeIdx) :
    Read.val_main_v5 (F := Ideal) x4 = Cert.Spec.asColumn Cert.Spec.wrapIdx x4 := by
  funext k
  rw [Read.val_main_v5_apply, Read.val_main_v4_apply, Read.val_main_v1_apply, Read.val_main_v3_apply,
    Read.val_main_v0_apply, Read.val_main_c_apply, Read.val_main_v2_apply, Read.val_main_c_0_apply]
  have e : Read.idx_main_v5 k = ix1 (k 0) := funext fun a => Fin.ext (by match a with | ⟨0, _⟩ => rfl)
  rw [e]
  rfl

theorem column_v12 (x3 : Cert.Spec.EdgeIdx) :
    Read.val_main_v12 (F := Ideal) x3 = Cert.Spec.asColumn Cert.Spec.wrapIdx x3 := by
  funext k
  rw [Read.val_main_v12_apply, Read.val_main_v11_apply, Read.val_main_v8_apply, Read.val_main_v10_apply,
    Read.val_main_v7_apply, Read.val_main_c_1_apply, Read.val_main_v9_apply, Read.val_main_c_2_apply]
  have e : Read.idx_main_v12 k = ix1 (k 0) := funext fun a => Fin.ext (by match a with | ⟨0, _⟩ => rfl)
  rw [e]
  rfl

theorem gatherDims_eq : gather_S50000x64_S800000x1_S800000x64_1_0_n_n_0_1_164 = Cert.Spec.rowGather := rfl

theorem rows_v6 (x0 : Cert.Spec.Arr2 50000 64) (x4 : Cert.Spec.EdgeIdx) :
    Read.val_main_v6 (F := Ideal) x0 x4 = Cert.Spec.rowsOf x0 x4 := by
  unfold Read.val_main_v6 Cert.Spec.rowsOf
  rw [column_v5, gatherDims_eq]

theorem rows_v13 (x1 : Cert.Spec.Arr2 50000 64) (x3 : Cert.Spec.EdgeIdx) :
    Read.val_main_v13 (F := Ideal) x1 x3 = Cert.Spec.rowsOf x1 x3 := by
  unfold Read.val_main_v13 Cert.Spec.rowsOf
  rw [column_v12, gatherDims_eq]

/-! ## A finite sum cut at its joints -/

/-- A sum over 144 terms is the sum of its first 64, its next 64 and its last 16. -/
theorem sum_cut3 (f : Fin 144 → EReal) :
    ∑ k : Fin 144, f k
      = ((∑ k : Fin 64, f ⟨0 + k.val, by have := k.isLt; omega⟩) + ∑ k : Fin 64, f ⟨64 + k.val, by have := k.isLt; omega⟩)
        + ∑ k : Fin 16, f ⟨128 + k.val, by have := k.isLt; omega⟩ := by
  have h1 := Fin.sum_univ_add (M := EReal) (a := 128) (b := 16) f
  have h2 := Fin.sum_univ_add (M := EReal) (a := 64) (b := 64) (fun k : Fin (64 + 64) => f (Fin.castAdd 16 k))
  refine h1.trans ?_
  refine congrArg (· + _) (h2.trans ?_)
  refine congrArg (· + _) (Finset.sum_congr rfl fun k _ => congrArg f (Fin.ext (Nat.zero_add _).symm))

/-- A sum over 128 terms is the sum of its first 64 and its last 64. -/
theorem sum_cut2 (g : Fin 128 → EReal) :
    ∑ k : Fin 128, g k
      = (∑ k : Fin 64, g ⟨0 + k.val, by have := k.isLt; omega⟩) + ∑ k : Fin 64, g ⟨64 + k.val, by have := k.isLt; omega⟩ := by
  have h2 := Fin.sum_univ_add (M := EReal) (a := 64) (b := 64) g
  refine h2.trans ?_
  refine congrArg (· + _) (Finset.sum_congr rfl fun k _ => congrArg g (Fin.ext (Nat.zero_add _).symm))

/-! ## The joined rows read at a column -/

section Joined
variable (A B : Cert.Spec.Arr2 800000 64) (C : Cert.Spec.Arr2 800000 16) (p : Fin 800000)
  (hcat : Shape.Concatenates [S800000x64, S800000x64, S800000x16] S800000x144 1)

/-- Columns 0 … 63 of the joined row are the first operand's. -/
theorem cat3_fst (k : Fin 64) :
    concatenate S800000x144 1 [⟨S800000x64, A⟩, ⟨S800000x64, B⟩, ⟨S800000x16, C⟩]
        hcat (ix2 p ⟨0 + k.val, by have := k.isLt; omega⟩)
      = A (ix2 p k) :=
  concatenate_apply_piece (t := S800000x144) 1 _ _ _ 0 (by show (0 : ℕ) < 3; omega) S800000x64 A rfl rfl 0 rfl (ix2 p k)
    (fun b hb => by match b with | ⟨0, _⟩ => rfl | ⟨1, _⟩ => exact absurd rfl hb) rfl

/-- Columns 64 … 127 of the joined row are the second operand's. -/
theorem cat3_snd (k : Fin 64) :
    concatenate S800000x144 1 [⟨S800000x64, A⟩, ⟨S800000x64, B⟩, ⟨S800000x16, C⟩]
        hcat (ix2 p ⟨64 + k.val, by have := k.isLt; omega⟩)
      = B (ix2 p k) :=
  concatenate_apply_piece (t := S800000x144) 1 _ _ _ 1 (by show (1 : ℕ) < 3; omega) S800000x64 B rfl rfl 64 rfl (ix2 p k)
    (fun b hb => by match b with | ⟨0, _⟩ => rfl | ⟨1, _⟩ => exact absurd rfl hb) rfl

/-- Columns 128 … 143 of the joined row are the third operand's. -/
theorem cat3_thd (k : Fin 16) :
    concatenate S800000x144 1 [⟨S800000x64, A⟩, ⟨S800000x64, B⟩, ⟨S800000x16, C⟩]
        hcat (ix2 p ⟨128 + k.val, by have := k.isLt; omega⟩)
      = C (ix2 p k) :=
  concatenate_apply_piece (t := S800000x144) 1 _ _ _ 2 (by show (2 : ℕ) < 3; omega) S800000x16 C rfl rfl 128 rfl (ix2 p k)
    (fun b hb => by match b with | ⟨0, _⟩ => rfl | ⟨1, _⟩ => exact absurd rfl hb) rfl

/-- The first layer's unit c on row p, the joined row multiplied by the whole weight matrix, is the
    specification's hidden unit with the sum cut at the joints. -/
theorem hidden_eq (x5 : Cert.Spec.Arr2 144 128) (x6 : Cert.Spec.Arr1 128) (c : Fin 128) :
    max ((∑ k : Fin 144, concatenate S800000x144 1 [⟨S800000x64, A⟩, ⟨S800000x64, B⟩, ⟨S800000x16, C⟩]
        hcat (ix2 p k) * x5 (ix2 k c)) + x6 (ix1 c)) Cert.Spec.zeroWord
      = Cert.Spec.edgeHidden A B C (Cert.Spec.rowsFrom 0 (by decide) x5) (Cert.Spec.rowsFrom 64 (by decide) x5)
          (Cert.Spec.rowsFrom 128 (by decide) x5) (Cert.Spec.asRow x6) p c := by
  rw [sum_cut3]
  simp only [cat3_fst, cat3_snd, cat3_thd]
  rfl

end Joined

/-! ## The edge network -/

section Edge
variable (x0 x1 : Cert.Spec.Arr2 50000 64) (x2 : Cert.Spec.Arr2 800000 16) (x3 x4 : Cert.Spec.EdgeIdx)
  (x5 : Cert.Spec.Arr2 144 128) (x6 : Cert.Spec.Arr1 128) (x7 : Cert.Spec.Arr2 128 64) (x8 : Cert.Spec.Arr1 64)

/-- The reference's first layer after its clamp, at row p and unit c. -/
theorem hidden_v19 (p : Fin 800000) (c : Fin 128) :
    Read.val_main_v19 (F := Ideal) x0 x1 x2 x3 x4 x5 x6 (ix2 p c)
      = Cert.Spec.edgeHidden (Cert.Spec.rowsOf x0 x4) (Cert.Spec.rowsOf x1 x3) x2 (Cert.Spec.rowsFrom 0 (by decide) x5)
          (Cert.Spec.rowsFrom 64 (by decide) x5) (Cert.Spec.rowsFrom 128 (by decide) x5) (Cert.Spec.asRow x6) p c := by
  rw [Read.val_main_v19_apply, Read.val_main_v18_apply, Read.val_main_v15_apply, Read.val_main_v17_apply,
    Read.val_main_v16_apply, Read.val_main_call0_v0_apply, Read.val_main_call0_cst_apply]
  unfold Read.val_main_v14
  rw [rows_v6, rows_v13]
  have el : ∀ k : Fin 144, Read.lidx_main_v15 (ix2 p c) k = ix2 p k := fun k =>
    funext fun a => Fin.ext (by match a with | ⟨0, _⟩ => rfl | ⟨1, _⟩ => rfl)
  have er : ∀ k : Fin 144, Read.ridx_main_v15 (ix2 p c) k = ix2 k c := fun k =>
    funext fun a => Fin.ext (by match a with | ⟨0, _⟩ => rfl | ⟨1, _⟩ => rfl)
  have eb : Read.idx_main_v16 (Read.idx_main_v17 (ix2 p c)) = ix1 c :=
    funext fun a => Fin.ext (by match a with | ⟨0, _⟩ => rfl)
  simp only [el, er, eb, Ideal.addf_def, Ideal.maximumf_def, Ideal.ofBits_def]
  exact hidden_eq _ _ _ p _ x5 x6 c

/-- The reference's edge network is the specification's, on the rows read at the counted indices. -/
theorem edge_v24 :
    Read.val_main_v24 (F := Ideal) x0 x1 x2 x3 x4 x5 x6 x7 x8
      = Cert.Spec.edgeMlp (Cert.Spec.rowsOf x0 x4) (Cert.Spec.rowsOf x1 x3) x2 (Cert.Spec.rowsFrom 0 (by decide) x5)
          (Cert.Spec.rowsFrom 64 (by decide) x5) (Cert.Spec.rowsFrom 128 (by decide) x5) (Cert.Spec.asRow x6) x7
          (Cert.Spec.asRow x8) := by
  funext i
  obtain ⟨p, q, rfl⟩ : ∃ (p : Fin 800000) (q : Fin 64), i = ix2 p q := ⟨i 0, i 1, eq_ix2 i⟩
  rw [Read.val_main_v24_apply, Read.val_main_v23_apply, Read.val_main_v20_apply, Read.val_main_v22_apply,
    Read.val_main_v21_apply, Read.val_main_call1_v0_apply, Read.val_main_call1_cst_apply]
  have el : ∀ c : Fin 128, Read.lidx_main_v20 (ix2 p q) c = ix2 p c := fun c =>
    funext fun a => Fin.ext (by match a with | ⟨0, _⟩ => rfl | ⟨1, _⟩ => rfl)
  have er : ∀ c : Fin 128, Read.ridx_main_v20 (ix2 p q) c = ix2 c q := fun c =>
    funext fun a => Fin.ext (by match a with | ⟨0, _⟩ => rfl | ⟨1, _⟩ => rfl)
  have eb : Read.idx_main_v21 (Read.idx_main_v22 (ix2 p q)) = ix1 q :=
    funext fun a => Fin.ext (by match a with | ⟨0, _⟩ => rfl)
  simp only [el, er, eb, hidden_v19, Ideal.addf_def, Ideal.maximumf_def, Ideal.ofBits_def]
  rfl

end Edge

/-! ## The buckets -/

theorem scatterDims_eq : scatter_S50000x64_S800000x1_S800000x64_1_0_0_1 = Cert.Spec.rowScatter := rfl

/-- The table the reference adds into is the zero word everywhere. -/
theorem zeros_v25 : Read.val_main_v25 (F := Ideal) = fun _ => Cert.Spec.zeroWord := by
  funext i
  rw [Read.val_main_v25_apply, Read.val_main_cst_apply]
  rfl

/-- The reference's index column for the sum is the edges' own indices as a column. -/
theorem column_v26 (x4 : Cert.Spec.EdgeIdx) :
    Read.val_main_v26 (F := Ideal) x4 = Cert.Spec.asColumn id x4 := by
  funext k
  rw [Read.val_main_v26_apply]
  have e : Read.idx_main_v26 k = ix1 (k 0) := funext fun a => Fin.ext (by match a with | ⟨0, _⟩ => rfl)
  rw [e]
  rfl

section Node
variable (x0 x1 : Cert.Spec.Arr2 50000 64) (x2 : Cert.Spec.Arr2 800000 16) (x3 x4 : Cert.Spec.EdgeIdx)
  (x5 : Cert.Spec.Arr2 144 128) (x6 : Cert.Spec.Arr1 128) (x7 : Cert.Spec.Arr2 128 64) (x8 : Cert.Spec.Arr1 64)
  (x9 : Cert.Spec.Arr2 128 128) (x10 : Cert.Spec.Arr1 128) (x11 : Cert.Spec.Arr2 128 64) (x12 : Cert.Spec.Arr1 64)

/-- The reference's sum over the edges is the specification's buckets of the edge network's rows. -/
theorem buckets_v27 :
    Read.val_main_v27 (F := Ideal) x0 x1 x2 x3 x4 x5 x6 x7 x8
      = Cert.Spec.buckets x4 (Read.val_main_v24 (F := Ideal) x0 x1 x2 x3 x4 x5 x6 x7 x8) := by
  unfold Read.val_main_v27 Cert.Spec.buckets
  generalize Read.val_main_v24 (F := Ideal) x0 x1 x2 x3 x4 x5 x6 x7 x8 = h
  rw [zeros_v25, column_v26, scatterDims_eq]
  rfl

/-! ## The node network -/

section Joined2
variable (u ag : Cert.Spec.Arr2 50000 64) (p : Fin 50000)
  (hcat : Shape.Concatenates [S50000x64, S50000x64] S50000x128 1)

/-- Columns 0 … 63 of a node's joined row are its own row. -/
theorem cat2_fst (k : Fin 64) :
    concatenate S50000x128 1 [⟨S50000x64, u⟩, ⟨S50000x64, ag⟩] hcat (ix2 p ⟨0 + k.val, by have := k.isLt; omega⟩)
      = u (ix2 p k) :=
  concatenate_apply_piece (t := S50000x128) 1 _ _ _ 0 (by show (0 : ℕ) < 2; omega) S50000x64 u rfl rfl 0 rfl (ix2 p k)
    (fun b hb => by match b with | ⟨0, _⟩ => rfl | ⟨1, _⟩ => exact absurd rfl hb) rfl

/-- Columns 64 … 127 of a node's joined row are its bucket. -/
theorem cat2_snd (k : Fin 64) :
    concatenate S50000x128 1 [⟨S50000x64, u⟩, ⟨S50000x64, ag⟩] hcat (ix2 p ⟨64 + k.val, by have := k.isLt; omega⟩)
      = ag (ix2 p k) :=
  concatenate_apply_piece (t := S50000x128) 1 _ _ _ 1 (by show (1 : ℕ) < 2; omega) S50000x64 ag rfl rfl 64 rfl (ix2 p k)
    (fun b hb => by match b with | ⟨0, _⟩ => rfl | ⟨1, _⟩ => exact absurd rfl hb) rfl

/-- The second network's first-layer unit c on node p, with the sum cut at the joint. -/
theorem node_hidden_eq (x9 : Cert.Spec.Arr2 128 128) (x10 : Cert.Spec.Arr1 128) (c : Fin 128) :
    max ((∑ k : Fin 128, concatenate S50000x128 1 [⟨S50000x64, u⟩, ⟨S50000x64, ag⟩] hcat (ix2 p k) * x9 (ix2 k c))
        + x10 (ix1 c)) Cert.Spec.zeroWord
      = Cert.Spec.nodeHidden u ag (Cert.Spec.rowsFrom 0 (by decide) x9) (Cert.Spec.rowsFrom 64 (by decide) x9)
          (Cert.Spec.asRow x10) p c := by
  rw [sum_cut2]
  simp only [cat2_fst, cat2_snd]
  rfl

end Joined2

/-- The reference's second network after its first clamp, at node p and unit c. -/
theorem hidden_v33 (p : Fin 50000) (c : Fin 128) :
    Read.val_main_v33 (F := Ideal) x0 x1 x2 x3 x4 x5 x6 x7 x8 x9 x10 (ix2 p c)
      = Cert.Spec.nodeHidden x0 (Read.val_main_v27 (F := Ideal) x0 x1 x2 x3 x4 x5 x6 x7 x8)
          (Cert.Spec.rowsFrom 0 (by decide) x9) (Cert.Spec.rowsFrom 64 (by decide) x9) (Cert.Spec.asRow x10) p c := by
  rw [Read.val_main_v33_apply, Read.val_main_v32_apply, Read.val_main_v29_apply, Read.val_main_v31_apply,
    Read.val_main_v30_apply, Read.val_main_call2_v0_apply, Read.val_main_call2_cst_apply]
  unfold Read.val_main_v28
  generalize Read.val_main_v27 (F := Ideal) x0 x1 x2 x3 x4 x5 x6 x7 x8 = ag
  have el : ∀ k : Fin 128, Read.lidx_main_v29 (ix2 p c) k = ix2 p k := fun k =>
    funext fun a => Fin.ext (by match a with | ⟨0, _⟩ => rfl | ⟨1, _⟩ => rfl)
  have er : ∀ k : Fin 128, Read.ridx_main_v29 (ix2 p c) k = ix2 k c := fun k =>
    funext fun a => Fin.ext (by match a with | ⟨0, _⟩ => rfl | ⟨1, _⟩ => rfl)
  have eb : Read.idx_main_v30 (Read.idx_main_v31 (ix2 p c)) = ix1 c :=
    funext fun a => Fin.ext (by match a with | ⟨0, _⟩ => rfl)
  simp only [el, er, eb, Ideal.addf_def, Ideal.maximumf_def, Ideal.ofBits_def]
  exact node_hidden_eq x0 ag p _ x9 x10 c

/-- The reference's second network is the specification's, on u and the summed rows. -/
theorem node_v38 :
    Read.val_main_v38 (F := Ideal) x0 x1 x2 x3 x4 x5 x6 x7 x8 x9 x10 x11 x12
      = Cert.Spec.nodeMlp x0 (Read.val_main_v27 (F := Ideal) x0 x1 x2 x3 x4 x5 x6 x7 x8)
          (Cert.Spec.rowsFrom 0 (by decide) x9) (Cert.Spec.rowsFrom 64 (by decide) x9) (Cert.Spec.asRow x10) x11
          (Cert.Spec.asRow x12) := by
  funext i
  obtain ⟨p, q, rfl⟩ : ∃ (p : Fin 50000) (q : Fin 64), i = ix2 p q := ⟨i 0, i 1, eq_ix2 i⟩
  rw [Read.val_main_v38_apply, Read.val_main_v37_apply, Read.val_main_v34_apply, Read.val_main_v36_apply,
    Read.val_main_v35_apply, Read.val_main_call3_v0_apply, Read.val_main_call3_cst_apply]
  have el : ∀ c : Fin 128, Read.lidx_main_v34 (ix2 p q) c = ix2 p c := fun c =>
    funext fun a => Fin.ext (by match a with | ⟨0, _⟩ => rfl | ⟨1, _⟩ => rfl)
  have er : ∀ c : Fin 128, Read.ridx_main_v34 (ix2 p q) c = ix2 c q := fun c =>
    funext fun a => Fin.ext (by match a with | ⟨0, _⟩ => rfl | ⟨1, _⟩ => rfl)
  have eb : Read.idx_main_v35 (Read.idx_main_v36 (ix2 p q)) = ix1 q :=
    funext fun a => Fin.ext (by match a with | ⟨0, _⟩ => rfl)
  simp only [el, er, eb, hidden_v33, Ideal.addf_def, Ideal.maximumf_def, Ideal.ofBits_def]
  rfl

end Node
/-- The run's last stage is the specification's reference result. -/
theorem result_eq (x0 x1 : Cert.Spec.Arr2 50000 64) (x2 : Cert.Spec.Arr2 800000 16) (x3 x4 : Cert.Spec.EdgeIdx)
    (x5 : Cert.Spec.Arr2 144 128) (x6 : Cert.Spec.Arr1 128) (x7 : Cert.Spec.Arr2 128 64) (x8 : Cert.Spec.Arr1 64)
    (x9 : Cert.Spec.Arr2 128 128) (x10 : Cert.Spec.Arr1 128) (x11 : Cert.Spec.Arr2 128 64) (x12 : Cert.Spec.Arr1 64) :
    Cert.ReferenceIdeal.Read.val_main_v38 (F := Ideal) x0 x1 x2 x3 x4 x5 x6 x7 x8 x9 x10 x11 x12
      = Cert.Spec.refOut x0 x1 x2 x3 x4 x5 x6 x7 x8 x9 x10 x11 x12 := by
  rw [node_v38, buckets_v27, edge_v24]
  rfl

end Cert.ReferenceIdeal.RefValue

end
-- ==== Proof.Bridge.lean ====
/-
  The kernel's result is the reference's, once every index into v is between −50000 and 49999.

  Such an index counts to a row, so the kernel keeps every row of v it reads: its rows of v are the reference's.
  Of u the kernel may still drop rows, where an edge's first index is outside that range; but the same index
  then names no bucket (a bucket's number is the index itself, uncounted, and must lie in 0 … 49999), so that
  edge's 64 outputs are added nowhere, in either program. On every edge whose outputs are added somewhere the
  two programs feed the edge network the same three rows.
-/
import proofs.«421968_j876173328516_3_alg».proof.Proof.Spec

noncomputable section

namespace Cert.Spec

open Idealize.ShloMosaic Idealize.ShloMosaic.ValueIdx

/-! ## Words and integers -/

theorem toInt_zero32 : (0#32 : BitVec 32).toInt = 0 := by decide
theorem toInt_50000 : (50000#32 : BitVec 32).toInt = 50000 := by decide
theorem toInt_49999 : (49999#32 : BitVec 32).toInt = 49999 := by decide

/-- Counting from the end lands on a row: an index between −50000 and 49999 counts to one between 0 and 49999. -/
theorem wrapIdx_toInt (x : BitVec 32) (h1 : -50000 ≤ x.toInt) (h2 : x.toInt < 50000) :
    0 ≤ (wrapIdx x).toInt ∧ (wrapIdx x).toInt ≤ 49999 := by
  unfold wrapIdx
  by_cases hneg : x.toInt < 0
  · rw [(IntOp.cmpi_slt).2 (by rw [toInt_zero32]; exact hneg), select_one]
    have hadd : (IntOp.addi x 50000#32).toInt = x.toInt + 50000 := by
      unfold IntOp.addi
      rw [BitVec.toInt_add, toInt_50000]
      exact Int.bmod_eq_of_le (by omega) (by omega)
    omega
  · have hz : IntOp.cmpi .slt x 0#32 = 0#1 :=
      eq_zero_of_ne_one fun h => hneg (by have := (IntOp.cmpi_slt).1 h; rwa [toInt_zero32] at this)
    rw [hz, select_zero]
    omega

/-- An index between −50000 and 49999 is in range. -/
theorem inRange_of_bounds (x : BitVec 32) (h1 : -50000 ≤ x.toInt) (h2 : x.toInt < 50000) : inRange x = 1#1 := by
  obtain ⟨ha, hb⟩ := wrapIdx_toInt x h1 h2
  unfold inRange
  rw [IntOp.andi_eq_one]
  exact ⟨(IntOp.cmpi_sge).2 (by rw [toInt_zero32]; exact ha), (IntOp.cmpi_sle).2 (by rw [toInt_49999]; exact hb)⟩

/-- With every index in that range the kernel keeps every row it reads. -/
theorem takeFill_eq_rowsOf (tbl : Arr2 50000 64) (idx : EdgeIdx)
    (h : ∀ e, -50000 ≤ (idx e).toInt ∧ (idx e).toInt < 50000) : takeFill tbl idx = rowsOf tbl idx := by
  funext i
  unfold takeFill
  rw [inRange_of_bounds _ (h _).1 (h _).2, select_one]

/-! ## The edge network reads its first operand a row at a time -/

theorem edgeMlp_congr_row {n : ℕ} (xu xu' xv : Arr2 n 64) (ev : Arr2 n 16) (w1u w1v : Arr2 64 128) (w1h : Arr2 16 128)
    (b1 : Arr2 1 128) (w2 : Arr2 128 64) (b2 : Arr2 1 64) (p : Fin n) (h : ∀ k, xu (ix2 p k) = xu' (ix2 p k)) (q : Fin 64) :
    edgeMlp xu xv ev w1u w1v w1h b1 w2 b2 (ix2 p q) = edgeMlp xu' xv ev w1u w1v w1h b1 w2 b2 (ix2 p q) := by
  have e0 : (ix2 p q : (⟨2, ![n, 64]⟩ : Shape).Idx) 0 = p := rfl
  simp only [edgeMlp, edgeHidden, e0, h]

/-! ## The buckets see only the edges whose index names one -/

/-- Two families of updates that agree wherever an update lands give the same sums. -/
theorem hostScatterAdd_congr {s si su : Shape} (d : ScatterDims s si su) {w : ℕ} (x : s.Idx → EReal) (idx : IVec si w)
    (u u' : su.Idx → EReal) (h : ∀ j i, d.resultIdx? j idx = some i → u j = u' j) :
    Ideal.hostScatterAdd d x idx u = Ideal.hostScatterAdd d x idx u' := by
  funext i
  unfold Ideal.hostScatterAdd
  exact congrArg (x i + ·) (Finset.sum_congr rfl fun j hj => h j i (Finset.mem_filter.1 hj).2)

/-- An edge's outputs land in a bucket only if the edge's index, as it stands, is between 0 and 49999. -/
theorem landed_bounds (iu : EdgeIdx) (j : (⟨2, ![800000, 64]⟩ : Shape).Idx) (i : (⟨2, ![50000, 64]⟩ : Shape).Idx)
    (h : rowScatter.resultIdx? j (asColumn id iu) = some i) :
    0 ≤ (iu (ix1 (j 0))).toInt ∧ (iu (ix1 (j 0))).toInt < 50000 := by
  unfold ScatterDims.resultIdx? at h
  split at h
  · rename_i hc
    have h0 := hc 0
    have hs : rowScatter.start j (asColumn id iu) 0 = (iu (ix1 (j 0))).toInt := by
      unfold ScatterDims.start
      rw [dif_pos (by decide)]
      rfl
    have hw : rowScatter.window j 0 = 0 := by
      unfold ScatterDims.window
      rw [dif_neg (by decide)]
    have hsz : ((⟨2, ![50000, 64]⟩ : Shape).size 0 : ℤ) = 50000 := rfl
    rw [hs, hw, hsz] at h0
    omega
  · cases h

/-! ## The two results -/

theorem kernelOut_eq_refOut (u v : Arr2 50000 64) (ev : Arr2 800000 16) (iv iu : EdgeIdx)
    (gw1 : Arr2 144 128) (gb1 : Arr1 128) (gw2 : Arr2 128 64) (gb2 : Arr1 64)
    (fw1 : Arr2 128 128) (fb1 : Arr1 128) (fw2 : Arr2 128 64) (fb2 : Arr1 64)
    (hv : ∀ e, -50000 ≤ (iv e).toInt ∧ (iv e).toInt < 50000) :
    kernelOut u v ev iv iu gw1 gb1 gw2 gb2 fw1 fb1 fw2 fb2 = refOut u v ev iv iu gw1 gb1 gw2 gb2 fw1 fb1 fw2 fb2 := by
  unfold kernelOut refOut
  rw [takeFill_eq_rowsOf v iv hv]
  unfold fromRows
  refine congrArg (fun ag => nodeMlp u ag (rowsFrom 0 (by decide) fw1) (rowsFrom 64 (by decide) fw1) (asRow fb1) fw2 (asRow fb2)) ?_
  unfold buckets
  refine hostScatterAdd_congr _ _ _ _ _ fun j i hji => ?_
  obtain ⟨ha, hb⟩ := landed_bounds iu j i hji
  obtain ⟨p, q, rfl⟩ : ∃ (p : Fin 800000) (q : Fin 64), j = ix2 p q := ⟨j 0, j 1, eq_ix2 j⟩
  refine edgeMlp_congr_row _ _ _ _ _ _ _ _ _ _ p (fun k => ?_) q
  show Scalar.select (inRange (iu (ix1 p))) (rowsOf u iu (ix2 p k)) fillWord = rowsOf u iu (ix2 p k)
  have ha' : 0 ≤ (iu (ix1 p)).toInt := ha
  have hb' : (iu (ix1 p)).toInt < 50000 := hb
  rw [inRange_of_bounds _ (by omega) hb', select_one]

end Cert.Spec

end
-- ==== Proof.PreDecode.lean ====
/-
  What the precondition says of the second index vector: the predicate is a conjunction of "every entry of
  this float array is finite" for each float array, closed by "every entry of the index vector into v is at
  least −50000 and less than 50000". Its last conjunct, read at an edge, is that pair of signed comparisons.
-/
import proofs.«421968_j876173328516_3_alg».proof.Pre_finite_inputs
import Idealize.ShloMosaic.Lib.ReduceAll
import Idealize.ShloMosaic.Lib.Affine
import Idealize.ShloMosaic.Lib.ValueIdx

noncomputable section

namespace Cert.PreDecode

open Idealize.ShloMosaic Idealize.ShloMosaic.ValueIdx Cert.Pre_finite_inputs

/-- The shape of a single number has one index. -/
instance subsingleton_scalar_idx : Subsingleton S_.Idx := ⟨fun a b => funext fun d => d.elim0⟩

theorem toInt_neg50000 : (4294917296#32 : BitVec 32).toInt = -50000 := by decide
theorem toInt_pos50000 : (50000#32 : BitVec 32).toInt = 50000 := by decide

variable {F : FTy → Type} [FloatOps F] [Cert.Pre_finite_inputs.Facts]

/-- Under the precondition every index into v lies between −50000 and 49999. -/
theorem idx_v_bounds (a0 a1 : FVec F S50000x64 .f32) (a2 : FVec F S800000x16 .f32) (a3 a4 : IVec S800000 32)
    (a5 : FVec F S144x128 .f32) (a6 : FVec F S128 .f32) (a7 : FVec F S128x64 .f32) (a8 : FVec F S64 .f32)
    (a9 : FVec F S128x128 .f32) (a10 : FVec F S128 .f32) (a11 : FVec F S128x64 .f32) (a12 : FVec F S64 .f32)
    (h : fn (F := F) a0 a1 a2 a3 a4 a5 a6 a7 a8 a9 a10 a11 a12 = fun _ => 1#1) (e : S800000.Idx) :
    -50000 ≤ (a3 e).toInt ∧ (a3 e).toInt < 50000 := by
  have h0 := congrFun h ix0
  simp only [fn, fn_part1, fn_part2, fn_part3] at h0
  -- the last conjunct: the index bounds hold at every edge
  have h1 := ((IntOp.andi_eq_one).1 h0).2
  have h2 := Host.reduce_andi_all _ _ _ _ _ h1 e
  obtain ⟨hge, hlt⟩ := (IntOp.andi_eq_one).1 h2
  have hge' : (4294917296#32 : BitVec 32).toInt ≤ (a3 e).toInt := (IntOp.cmpi_sge).1 hge
  have hlt' : (a3 e).toInt < (50000#32 : BitVec 32).toInt := (IntOp.cmpi_slt).1 hlt
  rw [toInt_neg50000] at hge'
  rw [toInt_pos50000] at hlt'
  exact ⟨hge', hlt'⟩

end Cert.PreDecode

end
-- ==== Proof.lean ====
/-
  A message-passing layer on a bipartite graph: 800000 edges, each with 16 features and an index into each of
  two tables u, v of 50000 rows of 64 features. Every edge's row of u, row of v and own row go through a
  two-layer ReLU network to 64 numbers, which are added into the bucket its u-index names; every row of u,
  joined to its bucket, goes through a second two-layer ReLU network to the 64 numbers of the result.

  Claimed: over the extended reals the kernel (two fused networks as grid kernels, the row reads and the
  bucket sums on the host) and the reference compute the same result, the kernel being its own idealization
  (no rewrite was applied), and all three programs run and leave their arguments alone.

  The two differ where an index into v names no row even when counted from the end: the reference reads the
  nearest row, the kernel a row of a fixed pattern. The precondition therefore asks, beside finite float
  inputs, that every index into v lie between −50000 and 49999, the range in which the reference's own read
  `v[e_idx_v]` is in bounds. No such bound is asked of the indices into u: an edge whose u-index names no row names no
  bucket either, and its outputs are dropped by both programs.

  The pieces: Spec (both results as functions of the arguments), Bridge (they are equal under the bound),
  PreDecode (the precondition gives the bound), KernelRun and KernelValue (the kernel's run ends at Spec's
  kernel result: Region0 and Region1 for what each grid kernel leaves, HostTakes and HostValues for what the
  host operations hand them), RefValue (the reference's run ends at Spec's reference result).
-/
import proofs.«421968_j876173328516_3_alg».proof.Defs
import proofs.«421968_j876173328516_3_alg».proof.Proof.Gen.Kernel
import proofs.«421968_j876173328516_3_alg».proof.Proof.Gen.Kernel.Skeleton
import proofs.«421968_j876173328516_3_alg».proof.Proof.Gen.Kernel.Launch
import proofs.«421968_j876173328516_3_alg».proof.Proof.Gen.Kernel.Points
import proofs.«421968_j876173328516_3_alg».proof.Proof.Gen.Kernel.Frame
import proofs.«421968_j876173328516_3_alg».proof.Proof.Gen.KernelIdeal
import proofs.«421968_j876173328516_3_alg».proof.Proof.Gen.KernelIdeal.Skeleton
import proofs.«421968_j876173328516_3_alg».proof.Proof.Gen.KernelIdeal.Launch
import proofs.«421968_j876173328516_3_alg».proof.Proof.Gen.KernelIdeal.Points
import proofs.«421968_j876173328516_3_alg».proof.Proof.Gen.KernelIdeal.Frame
import proofs.«421968_j876173328516_3_alg».proof.Proof.Gen.ReferenceIdeal
import proofs.«421968_j876173328516_3_alg».proof.Proof.Gen.ReferenceIdeal.Run
import proofs.«421968_j876173328516_3_alg».proof.Proof.Gen.ReferenceIdeal.Read
import proofs.«421968_j876173328516_3_alg».proof.Proof.Gen.Pre_finite_inputs
import proofs.«421968_j876173328516_3_alg».proof.Proof.KernelValue
import proofs.«421968_j876173328516_3_alg».proof.Proof.RefValue
import proofs.«421968_j876173328516_3_alg».proof.Proof.Bridge
import proofs.«421968_j876173328516_3_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No rewrite was applied in reading the kernel over the extended reals. -/
theorem preserves : Cert.preserves_Kernel_KernelIdeal := trivial

/-- From memories that agree on the arguments both programs end at the specification's kernel result: the
    kernel by its run, the reference because its own result equals that one under the bound the precondition
    gives on the indices into v. -/
theorem algebraic : Cert.algebraic_KernelIdeal_ReferenceIdeal := by
  intro m ρ m' ρ' hpre hagree
  refine ⟨fun c => Cert.Spec.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Whole.run_value m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12⟩ := hagree c
  refine (Cert.ReferenceIdeal.Read.val_main_v38_eq (F := Ideal) _ _ _ _ _ _ _ _ _ _ _ _ _).trans ?_
  refine (Cert.ReferenceIdeal.RefValue.result_eq _ _ _ _ _ _ _ _ _ _ _ _ _).trans ?_
  rw [e0, e1, e2, e3, e4, e5, e6, e7, e8, e9, e10, e11, e12]
  exact (Cert.Spec.kernelOut_eq_refOut _ _ _ _ _ _ _ _ _ _ _ _ _
    (fun e => Cert.PreDecode.idx_v_bounds _ _ _ _ _ _ _ _ _ _ _ _ _ (hpre c) e)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
